-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1x768x768 : Shape := ⟨4, ![4, 1, 768, 768]⟩
abbrev S_ : Shape := ⟨0, ![]⟩

class Facts : Prop where
  bcast_S_S4x1x768x768 : S_.BroadcastsInDim S4x1x768x768 (![] : Fin 0 → Fin S4x1x768x768.rank)
  reducesTo_S4x1x768x768_S_d0_1_2_3 : S4x1x768x768.ReducesTo [0, 1, 2, 3] S_
  h_S_ : 0 < S_.numel

variable [Facts]

def fn {F : FTy → Type} [FloatOps F] (main_arg0 : FVec F S4x1x768x768 .f32) (main_arg1 : FVec F S4x1x768x768 .f32) : IVec S_ 1 :=
  let main_v0 : FVec F S4x1x768x768 .f32 := Host.absf main_arg0
  let main_cst : FVec F S_ .f32 := constant S_ .f32 0x7F800000#32
  let main_v1 : FVec F S4x1x768x768 .f32 := broadcastInDim S4x1x768x768 ![] bcast_S_S4x1x768x768 main_cst
  let main_v2 : IVec S4x1x768x768 1 := cmpf .olt main_v0 main_v1
  let main_c : IVec S_ 1 := constantI S_ 1 1#1
  let main_v3 : IVec S_ 1 := (fun x v => Host.reduce IntOp.andi x v reducesTo_S4x1x768x768_S_d0_1_2_3 h_S_) main_v2 main_c
  let main_v4 : FVec F S4x1x768x768 .f32 := Host.absf main_arg1
  let main_cst_0 : FVec F S_ .f32 := constant S_ .f32 0x7F800000#32
  let main_v5 : FVec F S4x1x768x768 .f32 := broadcastInDim S4x1x768x768 ![] bcast_S_S4x1x768x768 main_cst_0
  let main_v6 : IVec S4x1x768x768 1 := cmpf .olt main_v4 main_v5
  let main_c_1 : IVec S_ 1 := constantI S_ 1 1#1
  let main_v7 : IVec S_ 1 := (fun x v => Host.reduce IntOp.andi x v reducesTo_S4x1x768x768_S_d0_1_2_3 h_S_) main_v6 main_c_1
  let main_v8 : IVec S_ 1 := andi main_v3 main_v7
  main_v8
-- ==== Kernel.lean ====
abbrev S4x1x768x768 : Shape := ⟨4, ![4, 1, 768, 768]⟩
abbrev S1x1x768x768 : Shape := ⟨4, ![1, 1, 768, 768]⟩
abbrev S768x768 : Shape := ⟨2, ![768, 768]⟩
abbrev S2x768 : Shape := ⟨2, ![2, 768]⟩
abbrev S772x768 : Shape := ⟨2, ![772, 768]⟩
abbrev S772x2 : Shape := ⟨2, ![772, 2]⟩
abbrev S772x772 : Shape := ⟨2, ![772, 772]⟩

abbrev nBuf : Space → Nat
  | .hbm => 4
  | .vmem => 8
  | .smem => 0
  | _ => 0

abbrev bufTy : (tb : Table) → Fin (tcTables nBuf tb) → BufTy
  | .hbm, ⟨0, _⟩ => ⟨S4x1x768x768, .f32⟩
  | .hbm, ⟨1, _⟩ => ⟨S4x1x768x768, .f32⟩
  | .hbm, ⟨2, _⟩ => ⟨S4x1x768x768, .f32⟩
  | .hbm, ⟨3, _⟩ => ⟨S4x1x768x768, .f32⟩
  | .local _ .vmem, ⟨0, _⟩ => ⟨S1x1x768x768, .f32⟩
  | .local _ .vmem, ⟨1, _⟩ => ⟨S1x1x768x768, .f32⟩
  | .local _ .vmem, ⟨2, _⟩ => ⟨S1x1x768x768, .f32⟩
  | .local _ .vmem, ⟨3, _⟩ => ⟨S1x1x768x768, .f32⟩
  | .local _ .vmem, ⟨4, _⟩ => ⟨S1x1x768x768, .f32⟩
  | .local _ .vmem, ⟨5, _⟩ => ⟨S1x1x768x768, .f32⟩
  | .local _ .vmem, ⟨6, _⟩ => ⟨S1x1x768x768, .f32⟩
  | .local _ .vmem, ⟨7, _⟩ => ⟨S1x1x768x768, .f32⟩
  | _, _ => ⟨S4x1x768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x768x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x768x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x768x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x768x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x1x768x768_S1x1x768x768_0_0_0_0 : ∀ a, (![0, 0, 0, 0] : Fin 4 → Nat) a + S1x1x768x768.size a ≤ S1x1x768x768.size a
  h_S1x1x768x768 : 0 < S1x1x768x768.numel
  shapeCasts_S1x1x768x768_S768x768 : S1x1x768x768.ShapeCasts S768x768
  concatenates_S2x768_S768x768_S2x768_S772x768_d0 : Shape.Concatenates [S2x768, S768x768, S2x768] S772x768 0
  concatenates_S772x2_S772x768_S772x2_S772x772_d1 : Shape.Concatenates [S772x2, S772x768, S772x2] S772x772 1
  slices_S772x772_o0_0_S768x768 : S772x772.Slices ![0, 0] S768x768
  slices_S772x772_o0_1_S768x768 : S772x772.Slices ![0, 1] S768x768
  slices_S772x772_o0_2_S768x768 : S772x772.Slices ![0, 2] S768x768
  slices_S772x772_o0_3_S768x768 : S772x772.Slices ![0, 3] S768x768
  slices_S772x772_o0_4_S768x768 : S772x772.Slices ![0, 4] S768x768
  slices_S772x772_o1_0_S768x768 : S772x772.Slices ![1, 0] S768x768
  slices_S772x772_o1_1_S768x768 : S772x772.Slices ![1, 1] S768x768
  slices_S772x772_o1_2_S768x768 : S772x772.Slices ![1, 2] S768x768
  slices_S772x772_o1_3_S768x768 : S772x772.Slices ![1, 3] S768x768
  slices_S772x772_o1_4_S768x768 : S772x772.Slices ![1, 4] S768x768
  slices_S772x772_o2_0_S768x768 : S772x772.Slices ![2, 0] S768x768
  slices_S772x772_o2_1_S768x768 : S772x772.Slices ![2, 1] S768x768
  slices_S772x772_o2_2_S768x768 : S772x772.Slices ![2, 2] S768x768
  slices_S772x772_o2_3_S768x768 : S772x772.Slices ![2, 3] S768x768
  slices_S772x772_o2_4_S768x768 : S772x772.Slices ![2, 4] S768x768
  slices_S772x772_o3_0_S768x768 : S772x772.Slices ![3, 0] S768x768
  slices_S772x772_o3_1_S768x768 : S772x772.Slices ![3, 1] S768x768
  slices_S772x772_o3_2_S768x768 : S772x772.Slices ![3, 2] S768x768
  slices_S772x772_o3_3_S768x768 : S772x772.Slices ![3, 3] S768x768
  slices_S772x772_o3_4_S768x768 : S772x772.Slices ![3, 4] S768x768
  slices_S772x772_o4_0_S768x768 : S772x772.Slices ![4, 0] S768x768
  slices_S772x772_o4_1_S768x768 : S772x772.Slices ![4, 1] S768x768
  slices_S772x772_o4_2_S768x768 : S772x772.Slices ![4, 2] S768x768
  slices_S772x772_o4_3_S768x768 : S772x772.Slices ![4, 3] S768x768
  slices_S772x772_o4_4_S768x768 : S772x772.Slices ![4, 4] S768x768
  shapeCasts_S768x768_S1x1x768x768 : S768x768.ShapeCasts S1x1x768x768
  natLt_1_32 : 1 < 32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x768x768.size a ≤ S4x1x768x768.size a
  hwx0_0 : ∀ i : grid0.Coords, EltTy.bits .f32 = 32 ∨ (Rect.block (s := S4x1x768x768) S1x1x768x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x768x768.size a ≤ S4x1x768x768.size a
  hwx0_1 : ∀ i : grid0.Coords, EltTy.bits .f32 = 32 ∨ (Rect.block (s := S4x1x768x768) S1x1x768x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x768x768.size a ≤ S4x1x768x768.size a
  hwx0_2 : ∀ i : grid0.Coords, EltTy.bits .f32 = 32 ∨ (Rect.block (s := S4x1x768x768) S1x1x768x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x768x768.size a ≤ S4x1x768x768.size a
  hwx0_3 : ∀ i : grid0.Coords, EltTy.bits .f32 = 32 ∨ (Rect.block (s := S4x1x768x768) S1x1x768x768.size (cc0_transform_3 i) (hinb0_3 i)).WholeWords (EltTy.packing .f32)

variable [Facts₀]

abbrev win0_0 : Pipeline.Window sig grid0 :=
  Pipeline.Window.ofSpec (Memref.whole main_arg0) S1x1x768x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x768x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x768x768.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x768x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x1x768x768 : Shape := ⟨4, ![4, 1, 768, 768]⟩
abbrev S25 : Shape := ⟨1, ![25]⟩
abbrev S_ : Shape := ⟨0, ![]⟩
abbrev S4x1x772x772 : Shape := ⟨4, ![4, 1, 772, 772]⟩
abbrev S4x1x1x768x768 : Shape := ⟨5, ![4, 1, 1, 768, 768]⟩
abbrev S4x1x16x768x768 : Shape := ⟨5, ![4, 1, 16, 768, 768]⟩
abbrev S4x1x9x768x768 : Shape := ⟨5, ![4, 1, 9, 768, 768]⟩
abbrev S4x1x25x768x768 : Shape := ⟨5, ![4, 1, 25, 768, 768]⟩
abbrev S1x1x25x1x1 : Shape := ⟨5, ![1, 1, 25, 1, 1]⟩

abbrev nBuf : Space → Nat
  | .hbm => 83
  | .vmem => 0
  | .smem => 0
  | _ => 0

abbrev bufTy : (tb : Table) → Fin (tcTables nBuf tb) → BufTy
  | .hbm, ⟨0, _⟩ => ⟨S4x1x768x768, .f32⟩
  | .hbm, ⟨1, _⟩ => ⟨S4x1x768x768, .f32⟩
  | .hbm, ⟨2, _⟩ => ⟨S25, .f32⟩
  | .hbm, ⟨3, _⟩ => ⟨S_, .f32⟩
  | .hbm, ⟨4, _⟩ => ⟨S4x1x768x768, .f32⟩
  | .hbm, ⟨5, _⟩ => ⟨S4x1x768x768, .f32⟩
  | .hbm, ⟨6, _⟩ => ⟨S_, .i32⟩
  | .hbm, ⟨7, _⟩ => ⟨S_, .f32⟩
  | .hbm, ⟨8, _⟩ => ⟨S4x1x772x772, .f32⟩
  | .hbm, ⟨9, _⟩ => ⟨S4x1x768x768, .f32⟩
  | .hbm, ⟨10, _⟩ => ⟨S4x1x768x768, .f32⟩
  | .hbm, ⟨11, _⟩ => ⟨S4x1x768x768, .f32⟩
  | .hbm, ⟨12, _⟩ => ⟨S4x1x768x768, .f32⟩
  | .hbm, ⟨13, _⟩ => ⟨S4x1x768x768, .f32⟩
  | .hbm, ⟨14, _⟩ => ⟨S4x1x768x768, .f32⟩
  | .hbm, ⟨15, _⟩ => ⟨S4x1x768x768, .f32⟩
  | .hbm, ⟨16, _⟩ => ⟨S4x1x768x768, .f32⟩
  | .hbm, ⟨17, _⟩ => ⟨S4x1x768x768, .f32⟩
  | .hbm, ⟨18, _⟩ => ⟨S4x1x768x768, .f32⟩
  | .hbm, ⟨19, _⟩ => ⟨S4x1x768x768, .f32⟩
  | .hbm, ⟨20, _⟩ => ⟨S4x1x768x768, .f32⟩
  | .hbm, ⟨21, _⟩ => ⟨S4x1x768x768, .f32⟩
  | .hbm, ⟨22, _⟩ => ⟨S4x1x768x768, .f32⟩
  | .hbm, ⟨23, _⟩ => ⟨S4x1x768x768, .f32⟩
  | .hbm, ⟨24, _⟩ => ⟨S4x1x768x768, .f32⟩
  | .hbm, ⟨25, _⟩ => ⟨S4x1x768x768, .f32⟩
  | .hbm, ⟨26, _⟩ => ⟨S4x1x768x768, .f32⟩
  | .hbm, ⟨27, _⟩ => ⟨S4x1x768x768, .f32⟩
  | .hbm, ⟨28, _⟩ => ⟨S4x1x768x768, .f32⟩
  | .hbm, ⟨29, _⟩ => ⟨S4x1x768x768, .f32⟩
  | .hbm, ⟨30, _⟩ => ⟨S4x1x768x768, .f32⟩
  | .hbm, ⟨31, _⟩ => ⟨S4x1x768x768, .f32⟩
  | .hbm, ⟨32, _⟩ => ⟨S4x1x768x768, .f32⟩
  | .hbm, ⟨33, _⟩ => ⟨S4x1x768x768, .f32⟩
  | .hbm, ⟨34, _⟩ => ⟨S4x1x1x768x768, .f32⟩
  | .hbm, ⟨35, _⟩ => ⟨S4x1x1x768x768, .f32⟩
  | .hbm, ⟨36, _⟩ => ⟨S4x1x1x768x768, .f32⟩
  | .hbm, ⟨37, _⟩ => ⟨S4x1x1x768x768, .f32⟩
  | .hbm, ⟨38, _⟩ => ⟨S4x1x1x768x768, .f32⟩
  | .hbm, ⟨39, _⟩ => ⟨S4x1x1x768x768, .f32⟩
  | .hbm, ⟨40, _⟩ => ⟨S4x1x1x768x768, .f32⟩
  | .hbm, ⟨41, _⟩ => ⟨S4x1x1x768x768, .f32⟩
  | .hbm, ⟨42, _⟩ => ⟨S4x1x1x768x768, .f32⟩
  | .hbm, ⟨43, _⟩ => ⟨S4x1x1x768x768, .f32⟩
  | .hbm, ⟨44, _⟩ => ⟨S4x1x1x768x768, .f32⟩
  | .hbm, ⟨45, _⟩ => ⟨S4x1x1x768x768, .f32⟩
  | .hbm, ⟨46, _⟩ => ⟨S4x1x1x768x768, .f32⟩
  | .hbm, ⟨47, _⟩ => ⟨S4x1x1x768x768, .f32⟩
  | .hbm, ⟨48, _⟩ => ⟨S4x1x1x768x768, .f32⟩
  | .hbm, ⟨49, _⟩ => ⟨S4x1x1x768x768, .f32⟩
  | .hbm, ⟨50, _⟩ => ⟨S4x1x1x768x768, .f32⟩
  | .hbm, ⟨51, _⟩ => ⟨S4x1x1x768x768, .f32⟩
  | .hbm, ⟨52, _⟩ => ⟨S4x1x1x768x768, .f32⟩
  | .hbm, ⟨53, _⟩ => ⟨S4x1x1x768x768, .f32⟩
  | .hbm, ⟨54, _⟩ => ⟨S4x1x1x768x768, .f32⟩
  | .hbm, ⟨55, _⟩ => ⟨S4x1x1x768x768, .f32⟩
  | .hbm, ⟨56, _⟩ => ⟨S4x1x1x768x768, .f32⟩
  | .hbm, ⟨57, _⟩ => ⟨S4x1x1x768x768, .f32⟩
  | .hbm, ⟨58, _⟩ => ⟨S4x1x1x768x768, .f32⟩
  | .hbm, ⟨59, _⟩ => ⟨S4x1x16x768x768, .f32⟩
  | .hbm, ⟨60, _⟩ => ⟨S4x1x9x768x768, .f32⟩
  | .hbm, ⟨61, _⟩ => ⟨S4x1x25x768x768, .f32⟩
  | .hbm, ⟨62, _⟩ => ⟨S1x1x25x1x1, .f32⟩
  | .hbm, ⟨63, _⟩ => ⟨S1x1x25x1x1, .f32⟩
  | .hbm, ⟨64, _⟩ => ⟨S4x1x768x768, .f32⟩
  | .hbm, ⟨65, _⟩ => ⟨S4x1x1x768x768, .f32⟩
  | .hbm, ⟨66, _⟩ => ⟨S_, .f32⟩
  | .hbm, ⟨67, _⟩ => ⟨S4x1x1x768x768, .f32⟩
  | .hbm, ⟨68, _⟩ => ⟨S4x1x1x768x768, .f32⟩
  | .hbm, ⟨69, _⟩ => ⟨S_, .f32⟩
  | .hbm, ⟨70, _⟩ => ⟨S4x1x1x768x768, .f32⟩
  | .hbm, ⟨71, _⟩ => ⟨S4x1x1x768x768, .f32⟩
  | .hbm, ⟨72, _⟩ => ⟨S4x1x25x768x768, .f32⟩
  | .hbm, ⟨73, _⟩ => ⟨S4x1x25x768x768, .f32⟩
  | .hbm, ⟨74, _⟩ => ⟨S4x1x25x768x768, .f32⟩
  | .hbm, ⟨75, _⟩ => ⟨S4x1x25x768x768, .f32⟩
  | .hbm, ⟨76, _⟩ => ⟨S4x1x25x768x768, .f32⟩
  | .hbm, ⟨77, _⟩ => ⟨S_, .f32⟩
  | .hbm, ⟨78, _⟩ => ⟨S4x1x768x768, .f32⟩
  | .hbm, ⟨79, _⟩ => ⟨S_, .f32⟩
  | .hbm, ⟨80, _⟩ => ⟨S4x1x768x768, .f32⟩
  | .hbm, ⟨81, _⟩ => ⟨S4x1x768x768, .i1⟩
  | .hbm, ⟨82, _⟩ => ⟨S4x1x768x768, .f32⟩
  | _, _ => ⟨S4x1x768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_c : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_cst_0 : Ref sig .tc := ⟨.hbm, 66, rfl⟩
abbrev main_v59 : Ref sig .tc := ⟨.hbm, 67, rfl⟩
abbrev main_v60 : Ref sig .tc := ⟨.hbm, 68, rfl⟩
abbrev main_cst_1 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_cst_2 : Ref sig .tc := ⟨.hbm, 77, rfl⟩
abbrev main_v68 : Ref sig .tc := ⟨.hbm, 78, rfl⟩
abbrev main_cst_3 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩

abbrev nD : Nat := 1
abbrev τ : Topo := Topo.v7x

variable {F : FTy → Type} [FloatOps F]

class Facts₀ : Prop where
  bcast_S_S4x1x768x768 : S_.BroadcastsInDim S4x1x768x768 (![] : Fin 0 → Fin S4x1x768x768.rank)
  pads_S4x1x768x768_S4x1x772x772_000_000_220_220 : S4x1x768x768.Pads (![0, 0, 2, 2] : Fin 4 → Nat) ![0, 0, 2, 2] ![0, 0, 0, 0] S4x1x772x772
  h_S_ : 0 < S_.numel
  slices_S4x1x772x772_S4x1x768x768_0_0_0_0 : S4x1x772x772.Slices ![0, 0, 0, 0] S4x1x768x768
  slices_S4x1x772x772_S4x1x768x768_0_0_0_1 : S4x1x772x772.Slices ![0, 0, 0, 1] S4x1x768x768
  slices_S4x1x772x772_S4x1x768x768_0_0_0_2 : S4x1x772x772.Slices ![0, 0, 0, 2] S4x1x768x768
  slices_S4x1x772x772_S4x1x768x768_0_0_0_3 : S4x1x772x772.Slices ![0, 0, 0, 3] S4x1x768x768
  slices_S4x1x772x772_S4x1x768x768_0_0_0_4 : S4x1x772x772.Slices ![0, 0, 0, 4] S4x1x768x768
  slices_S4x1x772x772_S4x1x768x768_0_0_1_0 : S4x1x772x772.Slices ![0, 0, 1, 0] S4x1x768x768
  slices_S4x1x772x772_S4x1x768x768_0_0_1_1 : S4x1x772x772.Slices ![0, 0, 1, 1] S4x1x768x768
  slices_S4x1x772x772_S4x1x768x768_0_0_1_2 : S4x1x772x772.Slices ![0, 0, 1, 2] S4x1x768x768
  slices_S4x1x772x772_S4x1x768x768_0_0_1_3 : S4x1x772x772.Slices ![0, 0, 1, 3] S4x1x768x768
  slices_S4x1x772x772_S4x1x768x768_0_0_1_4 : S4x1x772x772.Slices ![0, 0, 1, 4] S4x1x768x768
  slices_S4x1x772x772_S4x1x768x768_0_0_2_0 : S4x1x772x772.Slices ![0, 0, 2, 0] S4x1x768x768
  slices_S4x1x772x772_S4x1x768x768_0_0_2_1 : S4x1x772x772.Slices ![0, 0, 2, 1] S4x1x768x768
  slices_S4x1x772x772_S4x1x768x768_0_0_2_2 : S4x1x772x772.Slices ![0, 0, 2, 2] S4x1x768x768
  slices_S4x1x772x772_S4x1x768x768_0_0_2_3 : S4x1x772x772.Slices ![0, 0, 2, 3] S4x1x768x768
  slices_S4x1x772x772_S4x1x768x768_0_0_2_4 : S4x1x772x772.Slices ![0, 0, 2, 4] S4x1x768x768
  slices_S4x1x772x772_S4x1x768x768_0_0_3_0 : S4x1x772x772.Slices ![0, 0, 3, 0] S4x1x768x768
  slices_S4x1x772x772_S4x1x768x768_0_0_3_1 : S4x1x772x772.Slices ![0, 0, 3, 1] S4x1x768x768
  slices_S4x1x772x772_S4x1x768x768_0_0_3_2 : S4x1x772x772.Slices ![0, 0, 3, 2] S4x1x768x768
  slices_S4x1x772x772_S4x1x768x768_0_0_3_3 : S4x1x772x772.Slices ![0, 0, 3, 3] S4x1x768x768
  slices_S4x1x772x772_S4x1x768x768_0_0_3_4 : S4x1x772x772.Slices ![0, 0, 3, 4] S4x1x768x768
  slices_S4x1x772x772_S4x1x768x768_0_0_4_0 : S4x1x772x772.Slices ![0, 0, 4, 0] S4x1x768x768
  slices_S4x1x772x772_S4x1x768x768_0_0_4_1 : S4x1x772x772.Slices ![0, 0, 4, 1] S4x1x768x768
  slices_S4x1x772x772_S4x1x768x768_0_0_4_2 : S4x1x772x772.Slices ![0, 0, 4, 2] S4x1x768x768
  slices_S4x1x772x772_S4x1x768x768_0_0_4_3 : S4x1x772x772.Slices ![0, 0, 4, 3] S4x1x768x768
  slices_S4x1x772x772_S4x1x768x768_0_0_4_4 : S4x1x772x772.Slices ![0, 0, 4, 4] S4x1x768x768
  bcast_S4x1x768x768_S4x1x1x768x768_0_1_3_4 : S4x1x768x768.BroadcastsInDim S4x1x1x768x768 (![0, 1, 3, 4] : Fin 4 → Fin S4x1x1x768x768.rank)
  concatenates_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x16x768x768_d2 : Shape.Concatenates [S4x1x1x768x768, S4x1x1x768x768, S4x1x1x768x768, S4x1x1x768x768, S4x1x1x768x768, S4x1x1x768x768, S4x1x1x768x768, S4x1x1x768x768, S4x1x1x768x768, S4x1x1x768x768, S4x1x1x768x768, S4x1x1x768x768, S4x1x1x768x768, S4x1x1x768x768, S4x1x1x768x768, S4x1x1x768x768] S4x1x16x768x768 2
  concatenates_S4x1x1x768x768_S4x1x1x768x768_S4x1x1x768x768_S4x1x1x768x768_S4x1x1x768x768_S4x1x1x768x768_S4x1x1x768x768_S4x1x1x768x768_S4x1x1x768x768_S4x1x9x768x768_d2 : Shape.Concatenates [S4x1x1x768x768, S4x1x1x768x768, S4x1x1x768x768, S4x1x1x768x768, S4x1x1x768x768, S4x1x1x768x768, S4x1x1x768x768, S4x1x1x768x768, S4x1x1x768x768] S4x1x9x768x768 2
  concatenates_S4x1x16x768x768_S4x1x9x768x768_S4x1x25x768x768_d2 : Shape.Concatenates [S4x1x16x768x768, S4x1x9x768x768] S4x1x25x768x768 2
  bcast_S25_S1x1x25x1x1_2 : S25.BroadcastsInDim S1x1x25x1x1 (![2] : Fin 1 → Fin S1x1x25x1x1.rank)
  bcast_S_S4x1x1x768x768 : S_.BroadcastsInDim S4x1x1x768x768 (![] : Fin 0 → Fin S4x1x1x768x768.rank)
  bcast_S1x1x25x1x1_S4x1x25x768x768_0_1_2_3_4 : S1x1x25x1x1.BroadcastsInDim S4x1x25x768x768 (![0, 1, 2, 3, 4] : Fin 5 → Fin S4x1x25x768x768.rank)
  bcast_S4x1x1x768x768_S4x1x25x768x768_0_1_2_3_4 : S4x1x1x768x768.BroadcastsInDim S4x1x25x768x768 (![0, 1, 2, 3, 4] : Fin 5 → Fin S4x1x25x768x768.rank)
  reducesTo_S4x1x25x768x768_S4x1x768x768_d2 : S4x1x25x768x768.ReducesTo [2] S4x1x768x768

variable [Facts₀]

class Facts : Prop extends Facts₀ where

variable [Facts]
-- ==== Proof.Spec.lean ====
import Idealize.ShloMosaic.PureOps.Ideal
import Idealize.ShloMosaic.Lib.ValueIdx

/-!
The common value of the two programs, over the extended reals.

One image X (768 × 768) is clamped below at zero and surrounded by a border of two zeros (xpad); output pixel
(p, q) is the sum over the 25 taps n = 5·dy + dx of the 5 × 5 stencil of the bordered image at (p + dy, q + dx)
times the Gaussian weight exp (-r²ₙ / (2·s² + ε)), where r²ₙ = (dy-2)² + (dx-2)² and s is the per-pixel scale at
(p, q). The mask is 1 where that sum is at least one half and 0 elsewhere.
-/

noncomputable section

open scoped BigOperators

namespace Cert.Spec

open Idealize.ShloMosaic Idealize.ShloMosaic.ValueIdx

/-- Four one-channel images of 768 × 768 pixels. -/
abbrev Img : Shape := ⟨4, ![4, 1, 768, 768]⟩

/-- The squared distance (dy-2)² + (dx-2)² of tap n = 5·dy + dx from the stencil's centre, as the f32 word of
    that small integer (8, 5, 4, 2, 1 or 0). -/
def r2w : ℕ → BitVec 32
  | 0 => 0x41000000#32 | 1 => 0x40A00000#32 | 2 => 0x40800000#32 | 3 => 0x40A00000#32 | 4 => 0x41000000#32
  | 5 => 0x40A00000#32 | 6 => 0x40000000#32 | 7 => 0x3F800000#32 | 8 => 0x40000000#32 | 9 => 0x40A00000#32
  | 10 => 0x40800000#32 | 11 => 0x3F800000#32 | 12 => 0x00000000#32 | 13 => 0x3F800000#32 | 14 => 0x40800000#32
  | 15 => 0x40A00000#32 | 16 => 0x40000000#32 | 17 => 0x3F800000#32 | 18 => 0x40000000#32 | 19 => 0x40A00000#32
  | 20 => 0x41000000#32 | 21 => 0x40A00000#32 | 22 => 0x40800000#32 | 23 => 0x40A00000#32 | 24 => 0x41000000#32
  | _ => 0x00000000#32

/-- The Gaussian's denominator 2·s·s + ε at scale s (the product grouped from the left). -/
def den (s : EReal) : EReal := Ideal.ofBits .f32 0x40000000#32 * s * s + Ideal.ofBits .f32 0x358637BD#32

/-- The weight of tap n at scale s: exp (-r²ₙ / (2·s·s + ε)). -/
def wgt (n : ℕ) (s : EReal) : EReal := Ideal.exp (Ideal.div (-(Ideal.ofBits .f32 (r2w n))) (den s))

/-- The image clamped below at zero with a border of two zeros, at bordered coordinates (p, q), 0 ≤ p, q < 772
    (zero also at any coordinate outside the bordered image). -/
def xpad (X : Fin 768 → Fin 768 → EReal) (p q : ℕ) : EReal :=
  if h : (2 ≤ p ∧ p < 770) ∧ (2 ≤ q ∧ q < 770) then max (X ⟨p - 2, by omega⟩ ⟨q - 2, by omega⟩) 0 else 0

/-- Tap n's contribution at pixel (p, q). -/
def tap (X S : Fin 768 → Fin 768 → EReal) (p q : Fin 768) (n : ℕ) : EReal :=
  xpad X (p.val + n / 5) (q.val + n % 5) * wgt n (S p q)

/-- The scale-adaptive 5 × 5 convolution of one image at pixel (p, q). -/
def conv (X S : Fin 768 → Fin 768 → EReal) (p q : Fin 768) : EReal := ∑ n ∈ Finset.range 25, tap X S p q n

/-- The threshold bit of a convolved value, as a number: 1 where it is at least one half, else 0. -/
def maskOf (v : EReal) : EReal := (((Ideal.cmp .oge v (Ideal.ofBits .f32 0x3F000000#32)).toNat : ℝ) : EReal)

/-- Image b of a stack. -/
def img (x : Img.Idx → EReal) (b : Fin 4) : Fin 768 → Fin 768 → EReal := fun p q => x (ix4 b 0 p q)

/-- The convolution of every image of the stack x with the scales s. -/
def convArr (x s : Img.Idx → EReal) : Img.Idx → EReal := fun i => conv (img x (i 0)) (img s (i 0)) (i 2) (i 3)

/-- Its threshold mask. -/
def maskArr (x s : Img.Idx → EReal) : Img.Idx → EReal := fun i => maskOf (convArr x s i)

theorem convArr_ix4 (x s : Img.Idx → EReal) (b : Fin 4) (c : Fin 1) (p q : Fin 768) :
    convArr x s (ix4 b c p q) = conv (img x b) (img s b) p q := rfl

theorem maskArr_ix4 (x s : Img.Idx → EReal) (b : Fin 4) (c : Fin 1) (p q : Fin 768) :
    maskArr x s (ix4 b c p q) = maskOf (conv (img x b) (img s b) p q) := rfl

/-- The 25 taps written out, summed from the left starting at zero. -/
theorem conv_unfold (X S : Fin 768 → Fin 768 → EReal) (p q : Fin 768) :
    conv X S p q = 0 + tap X S p q 0 + tap X S p q 1 + tap X S p q 2 + tap X S p q 3 + tap X S p q 4
      + tap X S p q 5 + tap X S p q 6 + tap X S p q 7 + tap X S p q 8 + tap X S p q 9
      + tap X S p q 10 + tap X S p q 11 + tap X S p q 12 + tap X S p q 13 + tap X S p q 14
      + tap X S p q 15 + tap X S p q 16 + tap X S p q 17 + tap X S p q 18 + tap X S p q 19
      + tap X S p q 20 + tap X S p q 21 + tap X S p q 22 + tap X S p q 23 + tap X S p q 24 := by
  unfold conv
  simp only [Finset.sum_range_succ, Finset.sum_range_zero]

end Cert.Spec

end
-- ==== Proof.Consts.lean ====
import Idealize.ShloMosaic.PureOps.Ideal

/-!
The float words the two programs spell for the taps' squared distances, as extended reals: the kernel writes each
-r² as one word, the reference negates the word of r²; the two denote the same number.
-/

noncomputable section

namespace Cert.Consts

open Idealize.ShloMosaic

/-- +0.0 denotes 0. -/
theorem ofBits_zero : Ideal.ofBits .f32 0x00000000#32 = 0 := by
  simp [Ideal.ofBits, Ideal.ieee]

/-- -8.0 is the negative of 8.0. -/
theorem neg_eight : Ideal.ofBits .f32 0xC1000000#32 = -(Ideal.ofBits .f32 0x41000000#32) := by
  simp [Ideal.ofBits, Ideal.ieee, -EReal.coe_mul]

/-- -5.0 is the negative of 5.0. -/
theorem neg_five : Ideal.ofBits .f32 0xC0A00000#32 = -(Ideal.ofBits .f32 0x40A00000#32) := by
  simp [Ideal.ofBits, Ideal.ieee, -EReal.coe_mul]

/-- -4.0 is the negative of 4.0. -/
theorem neg_four : Ideal.ofBits .f32 0xC0800000#32 = -(Ideal.ofBits .f32 0x40800000#32) := by
  simp [Ideal.ofBits, Ideal.ieee, -EReal.coe_mul]

/-- -2.0 is the negative of 2.0. -/
theorem neg_two : Ideal.ofBits .f32 0xC0000000#32 = -(Ideal.ofBits .f32 0x40000000#32) := by
  simp [Ideal.ofBits, Ideal.ieee, -EReal.coe_mul]

/-- -1.0 is the negative of 1.0. -/
theorem neg_one : Ideal.ofBits .f32 0xBF800000#32 = -(Ideal.ofBits .f32 0x3F800000#32) := by
  simp [Ideal.ofBits, Ideal.ieee, -EReal.coe_mul]

/-- -0.0 is the negative of +0.0 (both denote 0). -/
theorem neg_zero : Ideal.ofBits .f32 0x80000000#32 = -(Ideal.ofBits .f32 0x00000000#32) := by
  simp [Ideal.ofBits, Ideal.ieee]

end Cert.Consts

end
-- ==== Proof.KernelBody.lean ====
import proofs.«119038_j90108413870322_1_alg».proof.Proof.Gen.KernelIdeal.Frame
import proofs.«119038_j90108413870322_1_alg».proof.Proof.Spec
import proofs.«119038_j90108413870322_1_alg».proof.Proof.Consts
import Idealize.ShloMosaic.Lib.Pipeline.Value
import Idealize.ShloMosaic.Lib.ValueIdx
import Idealize.ShloMosaic.Lib.ValueLayout
import Idealize.ShloMosaic.Lib.KernelVsHost

noncomputable section

namespace Cert.KernelIdeal.Body

open Cert.KernelIdeal Cert.KernelIdeal.Gen Idealize.ShloMosaic Idealize.ShloMosaic.ValueIdx

/-- The block [1, 1, 768, 768] viewed as [768, 768]: pixel (p, q) is element (0, 0, p, q). -/
theorem cast_drop (v : Vec Ideal S1x1x768x768 .f32) (h : S1x1x768x768.ShapeCasts S768x768) (p q : Fin 768) :
    shapeCast S768x768 v h (ix2 p q) = v (ix4 0 0 p q) := by
  refine shapeCast_apply v h (ix2 p q) (ix4 0 0 p q) ?_
  rw [Shape.rowMajor_val_four, Shape.rowMajor_val_two]
  show ((0 * 1 + 0) * 768 + p.val) * 768 + q.val = p.val * 768 + q.val
  omega

/-- An image [768, 768] viewed as the block [1, 1, 768, 768]: element (a, c, p, q) is pixel (p, q), the two
    leading coordinates being 0. -/
theorem cast_add (v : FVec Ideal S768x768 .f32) (h : S768x768.ShapeCasts S1x1x768x768) (a c : Fin 1) (p q : Fin 768) :
    shapeCast S1x1x768x768 v h (ix4 a c p q) = v (ix2 p q) := by
  refine shapeCast_apply v h (ix4 a c p q) (ix2 p q) ?_
  rw [Shape.rowMajor_val_four, Shape.rowMajor_val_two]
  show p.val * 768 + q.val = ((a.val * 1 + c.val) * 768 + p.val) * 768 + q.val
  have := a.isLt; have := c.isLt; omega

/-- The body's denominator at pixel (p, q) is 2·s·s + ε at the scale s the block holds there. -/
theorem pay4_apply (v4 : Vec Ideal S1x1x768x768 .f32) (p q : Fin 768) :
    k0_pay4 v4 (ix2 p q) = Cert.Spec.den (v4 (ix4 0 0 p q)) := by
  show Ideal.ofBits .f32 0x40000000#32 * shapeCast S768x768 v4 _ (ix2 p q) * shapeCast S768x768 v4 _ (ix2 p q)
      + Ideal.ofBits .f32 0x358637BD#32 = _
  rw [cast_drop]; rfl

/-- The bordered image read at natural coordinates, zero outside its 772 × 772 extent. -/
def rd (P : FVec Ideal S772x772 .f32) (m n : ℕ) : EReal :=
  if h : m < 772 ∧ n < 772 then P (ix2 ⟨m, h.1⟩ ⟨n, h.2⟩) else 0

/-- The 768 × 768 window of the bordered image at offset (dy, dx), read at (p, q): the bordered image at
    (dy + p, dx + q). -/
theorem slice_apply (dy dx : ℕ) (P : FVec Ideal S772x772 .f32) (h : S772x772.Slices ![dy, dx] S768x768) (p q : Fin 768) :
    extractStridedSlice S768x768 ![dy, dx] P h (ix2 p q) = rd P (dy + p.val) (dx + q.val) := by
  have h0 : dy + 768 ≤ 772 := h.2 0
  have h1 : dx + 768 ≤ 772 := h.2 1
  have hb : dy + p.val < 772 ∧ dx + q.val < 772 := ⟨by omega, by omega⟩
  unfold rd
  rw [dif_pos hb]
  refine extractStridedSlice_apply _ P h _ _ ?_
  intro a
  match a with
  | ⟨0, _⟩ => rfl
  | ⟨1, _⟩ => rfl

/-- Three blocks side by side along the columns: 2, 768 and 2 columns wide. -/
theorem cat_cols (L R : FVec Ideal S772x2 .f32) (M : FVec Ideal S772x768 .f32)
    (h : Shape.Concatenates [S772x2, S772x768, S772x2] S772x772 1) (p' q' : Fin 772) :
    concatenate S772x772 1 [⟨S772x2, L⟩, ⟨S772x768, M⟩, ⟨S772x2, R⟩] h (ix2 p' q')
      = if h1 : q'.val < 2 then L (ix2 p' ⟨q'.val, h1⟩)
        else if h2 : q'.val < 770 then M (ix2 p' ⟨q'.val - 2, by omega⟩)
        else R (ix2 p' ⟨q'.val - 770, by omega⟩) := by
  by_cases h1 : q'.val < 2
  · rw [dif_pos h1]
    refine concatenate_apply_piece (t := S772x772) 1 [⟨S772x2, L⟩, ⟨S772x768, M⟩, ⟨S772x2, R⟩] h (ix2 p' q') 0 (by simp) S772x2 L rfl rfl 0 rfl
      (ix2 p' ⟨q'.val, h1⟩) ?_ ?_
    · intro b hb
      match b with
      | ⟨0, _⟩ => rfl
      | ⟨1, _⟩ => exact absurd rfl hb
    · show 0 + q'.val = q'.val
      omega
  · rw [dif_neg h1]
    by_cases h2 : q'.val < 770
    · rw [dif_pos h2]
      refine concatenate_apply_piece (t := S772x772) 1 [⟨S772x2, L⟩, ⟨S772x768, M⟩, ⟨S772x2, R⟩] h (ix2 p' q') 1 (by simp) S772x768 M rfl rfl 2 rfl
        (ix2 p' ⟨q'.val - 2, by omega⟩) ?_ ?_
      · intro b hb
        match b with
        | ⟨0, _⟩ => rfl
        | ⟨1, _⟩ => exact absurd rfl hb
      · show 2 + (q'.val - 2) = q'.val
        omega
    · rw [dif_neg h2]
      refine concatenate_apply_piece (t := S772x772) 1 [⟨S772x2, L⟩, ⟨S772x768, M⟩, ⟨S772x2, R⟩] h (ix2 p' q') 2 (by simp) S772x2 R rfl rfl 770 rfl
        (ix2 p' ⟨q'.val - 770, by omega⟩) ?_ ?_
      · intro b hb
        match b with
        | ⟨0, _⟩ => rfl
        | ⟨1, _⟩ => exact absurd rfl hb
      · show 770 + (q'.val - 770) = q'.val
        omega

/-- Three blocks stacked along the rows: 2, 768 and 2 rows high. -/
theorem cat_rows (T B : FVec Ideal S2x768 .f32) (M : FVec Ideal S768x768 .f32)
    (h : Shape.Concatenates [S2x768, S768x768, S2x768] S772x768 0) (p' : Fin 772) (q : Fin 768) :
    concatenate S772x768 0 [⟨S2x768, T⟩, ⟨S768x768, M⟩, ⟨S2x768, B⟩] h (ix2 p' q)
      = if h1 : p'.val < 2 then T (ix2 ⟨p'.val, h1⟩ q)
        else if h2 : p'.val < 770 then M (ix2 ⟨p'.val - 2, by omega⟩ q)
        else B (ix2 ⟨p'.val - 770, by omega⟩ q) := by
  by_cases h1 : p'.val < 2
  · rw [dif_pos h1]
    refine concatenate_apply_piece (t := S772x768) 0 [⟨S2x768, T⟩, ⟨S768x768, M⟩, ⟨S2x768, B⟩] h (ix2 p' q) 0 (by simp) S2x768 T rfl rfl 0 rfl
      (ix2 ⟨p'.val, h1⟩ q) ?_ ?_
    · intro b hb
      match b with
      | ⟨0, _⟩ => exact absurd rfl hb
      | ⟨1, _⟩ => rfl
    · show 0 + p'.val = p'.val
      omega
  · rw [dif_neg h1]
    by_cases h2 : p'.val < 770
    · rw [dif_pos h2]
      refine concatenate_apply_piece (t := S772x768) 0 [⟨S2x768, T⟩, ⟨S768x768, M⟩, ⟨S2x768, B⟩] h (ix2 p' q) 1 (by simp) S768x768 M rfl rfl 2 rfl
        (ix2 ⟨p'.val - 2, by omega⟩ q) ?_ ?_
      · intro b hb
        match b with
        | ⟨0, _⟩ => exact absurd rfl hb
        | ⟨1, _⟩ => rfl
      · show 2 + (p'.val - 2) = p'.val
        omega
    · rw [dif_neg h2]
      refine concatenate_apply_piece (t := S772x768) 0 [⟨S2x768, T⟩, ⟨S768x768, M⟩, ⟨S2x768, B⟩] h (ix2 p' q) 2 (by simp) S2x768 B rfl rfl 770 rfl
        (ix2 ⟨p'.val - 770, by omega⟩ q) ?_ ?_
      · intro b hb
        match b with
        | ⟨0, _⟩ => exact absurd rfl hb
        | ⟨1, _⟩ => rfl
      · show 770 + (p'.val - 770) = p'.val
        omega

/-- The bordered image the body builds: zero in the two outer rows and columns on every side, the block's
    image clamped below at zero inside. -/
theorem pay5_apply (v0 : Vec Ideal S1x1x768x768 .f32) (p' q' : Fin 772) :
    k0_pay5 v0 (ix2 p' q') = Cert.Spec.xpad (fun p q => v0 (ix4 0 0 p q)) p'.val q'.val := by
  simp only [k0_pay5]
  rw [cat_cols]
  unfold Cert.Spec.xpad
  by_cases h1 : q'.val < 2
  · rw [dif_pos h1, dif_neg (by omega)]
    exact Cert.Consts.ofBits_zero
  · rw [dif_neg h1]
    by_cases h2 : q'.val < 770
    · rw [dif_pos h2, cat_rows]
      by_cases h3 : p'.val < 2
      · rw [dif_pos h3, dif_neg (by omega)]
        exact Cert.Consts.ofBits_zero
      · rw [dif_neg h3]
        by_cases h4 : p'.val < 770
        · rw [dif_pos h4, dif_pos (by omega)]
          show max (shapeCast S768x768 v0 _ (ix2 _ _)) (Ideal.ofBits .f32 0x00000000#32) = _
          rw [cast_drop, Cert.Consts.ofBits_zero]
        · rw [dif_neg h4, dif_neg (by omega)]
          exact Cert.Consts.ofBits_zero
    · rw [dif_neg h2, dif_neg (by omega)]
      exact Cert.Consts.ofBits_zero

/-- One product of the body's sum at pixel (p, q): the bordered image at (dy + p, dx + q) times
    exp (c / D (p, q)), c the number the word w spells. -/
def kt (D : FVec Ideal S768x768 .f32) (P : FVec Ideal S772x772 .f32) (w : BitVec 32) (dy dx : ℕ) (p q : Fin 768) : EReal :=
  rd P (dy + p.val) (dx + q.val) * Ideal.exp (Ideal.div (Ideal.ofBits .f32 w) (D (ix2 p q)))

/-- Adding one tap's product to an accumulator, read at pixel (p, q). -/
theorem step_apply (acc D : FVec Ideal S768x768 .f32) (P : FVec Ideal S772x772 .f32) (w : BitVec 32) (dy dx : ℕ)
    (h : S772x772.Slices ![dy, dx] S768x768) (p q : Fin 768) :
    addf acc (mulf (extractStridedSlice S768x768 ![dy, dx] P h)
        (exp (divf (broadcast S768x768 (Scalar.ofBits (F := Ideal) .f32 w)) D))) (ix2 p q)
      = acc (ix2 p q) + kt D P w dy dx p q := by
  show acc (ix2 p q) + extractStridedSlice S768x768 ![dy, dx] P h (ix2 p q)
      * Ideal.exp (Ideal.div (Ideal.ofBits .f32 w) (D (ix2 p q))) = _
  rw [slice_apply]
  rfl

/-- The accumulator starts at zero. -/
theorem zero_apply (p q : Fin 768) :
    broadcast S768x768 (Scalar.ofBits (F := Ideal) .f32 0x00000000#32) (ix2 p q) = 0 :=
  Cert.Consts.ofBits_zero

/-- The body's 25 accumulation steps, read at pixel (p, q): the products in tap order, summed from the left. -/
theorem sum_apply (v0 v4 : Vec Ideal S1x1x768x768 .f32) (p q : Fin 768) :
    k0_pay1 (k0_pay4 v4) (k0_pay5 v0)
      (k0_pay11 (k0_pay4 v4) (k0_pay5 v0) (k0_pay8 (k0_pay4 v4) (k0_pay5 v0) (k0_pay6 v0 v4) (k0_pay7 v0)) (k0_pay9 (k0_pay5 v0)) (k0_pay10 (k0_pay4 v4)))
      (k0_pay12 (k0_pay5 v0)) (Scalar.ofBits .f32 0xC0A00000#32) (ix2 p q)
      = 0
        + kt (k0_pay4 v4) (k0_pay5 v0) 0xC1000000#32 0 0 p q + kt (k0_pay4 v4) (k0_pay5 v0) 0xC0A00000#32 0 1 p q
        + kt (k0_pay4 v4) (k0_pay5 v0) 0xC0800000#32 0 2 p q + kt (k0_pay4 v4) (k0_pay5 v0) 0xC0A00000#32 0 3 p q
        + kt (k0_pay4 v4) (k0_pay5 v0) 0xC1000000#32 0 4 p q + kt (k0_pay4 v4) (k0_pay5 v0) 0xC0A00000#32 1 0 p q
        + kt (k0_pay4 v4) (k0_pay5 v0) 0xC0000000#32 1 1 p q + kt (k0_pay4 v4) (k0_pay5 v0) 0xBF800000#32 1 2 p q
        + kt (k0_pay4 v4) (k0_pay5 v0) 0xC0000000#32 1 3 p q + kt (k0_pay4 v4) (k0_pay5 v0) 0xC0A00000#32 1 4 p q
        + kt (k0_pay4 v4) (k0_pay5 v0) 0xC0800000#32 2 0 p q + kt (k0_pay4 v4) (k0_pay5 v0) 0xBF800000#32 2 1 p q
        + kt (k0_pay4 v4) (k0_pay5 v0) 0x80000000#32 2 2 p q + kt (k0_pay4 v4) (k0_pay5 v0) 0xBF800000#32 2 3 p q
        + kt (k0_pay4 v4) (k0_pay5 v0) 0xC0800000#32 2 4 p q + kt (k0_pay4 v4) (k0_pay5 v0) 0xC0A00000#32 3 0 p q
        + kt (k0_pay4 v4) (k0_pay5 v0) 0xC0000000#32 3 1 p q + kt (k0_pay4 v4) (k0_pay5 v0) 0xBF800000#32 3 2 p q
        + kt (k0_pay4 v4) (k0_pay5 v0) 0xC0000000#32 3 3 p q + kt (k0_pay4 v4) (k0_pay5 v0) 0xC0A00000#32 3 4 p q
        + kt (k0_pay4 v4) (k0_pay5 v0) 0xC1000000#32 4 0 p q + kt (k0_pay4 v4) (k0_pay5 v0) 0xC0A00000#32 4 1 p q
        + kt (k0_pay4 v4) (k0_pay5 v0) 0xC0800000#32 4 2 p q + kt (k0_pay4 v4) (k0_pay5 v0) 0xC0A00000#32 4 3 p q
        + kt (k0_pay4 v4) (k0_pay5 v0) 0xC1000000#32 4 4 p q := by
  simp only [k0_pay1, k0_pay11, k0_pay8, k0_pay6, k0_pay7, k0_pay9, k0_pay10, k0_pay12, step_apply, zero_apply]

/-- The bordered image the body builds, read at natural coordinates, is the specification's. -/
theorem rd_pay5 (v0 : Vec Ideal S1x1x768x768 .f32) (m n : ℕ) :
    rd (k0_pay5 v0) m n = Cert.Spec.xpad (fun p q => v0 (ix4 0 0 p q)) m n := by
  unfold rd
  by_cases h : m < 772 ∧ n < 772
  · rw [dif_pos h]
    exact pay5_apply v0 ⟨m, h.1⟩ ⟨n, h.2⟩
  · rw [dif_neg h]
    unfold Cert.Spec.xpad
    rw [dif_neg (by omega)]

/-- One product of the body is the specification's tap n = 5·dy + dx: the kernel spells -r² as one word, the
    specification negates the word of r². -/
theorem kt_eq (v0 v4 : Vec Ideal S1x1x768x768 .f32) (p q : Fin 768) (n dy dx : ℕ) (w : BitVec 32)
    (hdy : n / 5 = dy) (hdx : n % 5 = dx)
    (hw : Ideal.ofBits .f32 w = -(Ideal.ofBits .f32 (Cert.Spec.r2w n))) :
    kt (k0_pay4 v4) (k0_pay5 v0) w dy dx p q
      = Cert.Spec.tap (fun p q => v0 (ix4 0 0 p q)) (fun p q => v4 (ix4 0 0 p q)) p q n := by
  subst hdy hdx
  unfold kt Cert.Spec.tap Cert.Spec.wgt
  rw [rd_pay5, pay4_apply, hw, Nat.add_comm (n / 5), Nat.add_comm (n % 5)]

/-- The body's sum at pixel (p, q) is the specification's convolution. -/
theorem body_sum (v0 v4 : Vec Ideal S1x1x768x768 .f32) (p q : Fin 768) :
    k0_pay1 (k0_pay4 v4) (k0_pay5 v0)
      (k0_pay11 (k0_pay4 v4) (k0_pay5 v0) (k0_pay8 (k0_pay4 v4) (k0_pay5 v0) (k0_pay6 v0 v4) (k0_pay7 v0)) (k0_pay9 (k0_pay5 v0)) (k0_pay10 (k0_pay4 v4)))
      (k0_pay12 (k0_pay5 v0)) (Scalar.ofBits .f32 0xC0A00000#32) (ix2 p q)
      = Cert.Spec.conv (fun p q => v0 (ix4 0 0 p q)) (fun p q => v4 (ix4 0 0 p q)) p q := by
  rw [sum_apply, Cert.Spec.conv_unfold,
    kt_eq v0 v4 p q 0 0 0 0xC1000000#32 rfl rfl Cert.Consts.neg_eight,
    kt_eq v0 v4 p q 1 0 1 0xC0A00000#32 rfl rfl Cert.Consts.neg_five,
    kt_eq v0 v4 p q 2 0 2 0xC0800000#32 rfl rfl Cert.Consts.neg_four,
    kt_eq v0 v4 p q 3 0 3 0xC0A00000#32 rfl rfl Cert.Consts.neg_five,
    kt_eq v0 v4 p q 4 0 4 0xC1000000#32 rfl rfl Cert.Consts.neg_eight,
    kt_eq v0 v4 p q 5 1 0 0xC0A00000#32 rfl rfl Cert.Consts.neg_five,
    kt_eq v0 v4 p q 6 1 1 0xC0000000#32 rfl rfl Cert.Consts.neg_two,
    kt_eq v0 v4 p q 7 1 2 0xBF800000#32 rfl rfl Cert.Consts.neg_one,
    kt_eq v0 v4 p q 8 1 3 0xC0000000#32 rfl rfl Cert.Consts.neg_two,
    kt_eq v0 v4 p q 9 1 4 0xC0A00000#32 rfl rfl Cert.Consts.neg_five,
    kt_eq v0 v4 p q 10 2 0 0xC0800000#32 rfl rfl Cert.Consts.neg_four,
    kt_eq v0 v4 p q 11 2 1 0xBF800000#32 rfl rfl Cert.Consts.neg_one,
    kt_eq v0 v4 p q 12 2 2 0x80000000#32 rfl rfl Cert.Consts.neg_zero,
    kt_eq v0 v4 p q 13 2 3 0xBF800000#32 rfl rfl Cert.Consts.neg_one,
    kt_eq v0 v4 p q 14 2 4 0xC0800000#32 rfl rfl Cert.Consts.neg_four,
    kt_eq v0 v4 p q 15 3 0 0xC0A00000#32 rfl rfl Cert.Consts.neg_five,
    kt_eq v0 v4 p q 16 3 1 0xC0000000#32 rfl rfl Cert.Consts.neg_two,
    kt_eq v0 v4 p q 17 3 2 0xBF800000#32 rfl rfl Cert.Consts.neg_one,
    kt_eq v0 v4 p q 18 3 3 0xC0000000#32 rfl rfl Cert.Consts.neg_two,
    kt_eq v0 v4 p q 19 3 4 0xC0A00000#32 rfl rfl Cert.Consts.neg_five,
    kt_eq v0 v4 p q 20 4 0 0xC1000000#32 rfl rfl Cert.Consts.neg_eight,
    kt_eq v0 v4 p q 21 4 1 0xC0A00000#32 rfl rfl Cert.Consts.neg_five,
    kt_eq v0 v4 p q 22 4 2 0xC0800000#32 rfl rfl Cert.Consts.neg_four,
    kt_eq v0 v4 p q 23 4 3 0xC0A00000#32 rfl rfl Cert.Consts.neg_five,
    kt_eq v0 v4 p q 24 4 4 0xC1000000#32 rfl rfl Cert.Consts.neg_eight]

/-- The whole-block rectangle's offsets are all zero. -/
theorem off_zero : (![0, 0, 0, 0] : Fin 4 → Nat) = fun _ => 0 := by
  funext a
  match a with
  | ⟨0, _⟩ => rfl
  | ⟨1, _⟩ => rfl
  | ⟨2, _⟩ => rfl
  | ⟨3, _⟩ => rfl

/-- What the body leaves in the first output's block, pixel by pixel: the convolution of the one image the point holds. -/
theorem out2_apply (x0 x1 : Vec Ideal S1x1x768x768 .f32) (a c : Fin 1) (p q : Fin 768) :
    out0_2 x0 x1 (ix4 a c p q)
      = Cert.Spec.conv (fun p q => x0 (ix4 0 0 p q)) (fun p q => x1 (ix4 0 0 p q)) p q := by
  unfold out0_2
  rw [View.canon_unit_zero off_zero]
  simp only [View.ld_unit_zero (S := S1x1x768x768) off_zero]
  simp only [k0_pay2]
  rw [cast_add]
  exact body_sum x0 x1 p q

/-- What the body leaves in the second output's block, pixel by pixel: the threshold bit of that convolution. -/
theorem out3_apply (x0 x1 : Vec Ideal S1x1x768x768 .f32) (a c : Fin 1) (p q : Fin 768) :
    out0_3 x0 x1 (ix4 a c p q)
      = Cert.Spec.maskOf (Cert.Spec.conv (fun p q => x0 (ix4 0 0 p q)) (fun p q => x1 (ix4 0 0 p q)) p q) := by
  unfold out0_3
  rw [View.canon_unit_zero off_zero]
  simp only [View.ld_unit_zero (S := S1x1x768x768) off_zero]
  simp only [k0_pay3]
  rw [cast_add, sitofp_extui_eq_uitofp]
  exact congrArg Cert.Spec.maskOf (body_sum x0 x1 p q)

end Cert.KernelIdeal.Body

end
-- ==== Proof.KernelArray.lean ====
import proofs.«119038_j90108413870322_1_alg».proof.Proof.Gen.KernelIdeal.Value
import proofs.«119038_j90108413870322_1_alg».proof.Proof.KernelBody

/-!
From blocks to arrays. Grid point t of the kernel handles image t of the stack: every window's block at t is the whole
image t (block index (t, 0, 0, 0), block extents 1 × 1 × 768 × 768), so what point t writes back is image t of the
convolution (of the mask) of the argument arrays, the four blocks tile each result array, and the result arrays end
holding the convolution and its mask of the whole stack.
-/

noncomputable section

namespace Cert.KernelIdeal.Arr

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Every window's block index at grid point t is (t, 0, 0, 0), decided over the four points. -/
theorem idx_facts : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 4) = t.val ∧ win0_1.index t (1 : Fin 4) = 0 ∧ win0_1.index t (2 : Fin 4) = 0 ∧ win0_1.index t (3 : Fin 4) = 0)
    ∧ (win0_2.index t (0 : Fin 4) = t.val ∧ win0_2.index t (1 : Fin 4) = 0 ∧ win0_2.index t (2 : Fin 4) = 0 ∧ win0_2.index t (3 : Fin 4) = 0)
    ∧ (win0_3.index t (0 : Fin 4) = t.val ∧ win0_3.index t (1 : Fin 4) = 0 ∧ win0_3.index t (2 : Fin 4) = 0 ∧ win0_3.index t (3 : Fin 4) = 0) :=
  (by decide +kernel : ∀ t : Fin grid0.N, _)

/-- The image grid point t handles. -/
def imgOf (t : Fin cfg0.N) : Fin 4 := ⟨t.val, Nat.lt_of_lt_of_eq t.isLt N_0⟩

/-- The first input's block at point t is image t of the first argument. -/
theorem iblk0_apply (c : Dev nD) (t : Fin cfg0.N) (a c' : Fin 1) (p q : Fin 768) :
    (iblk m c 0 t : Vec Ideal S1x1x768x768 .f32) (ix4 a c' p q)
      = (m ((c : Thread nD τ).loc main_arg0) : S4x1x768x768.Idx → Elt Ideal .f32) (ix4 (imgOf t) 0 p q) := by
  obtain ⟨⟨e0, e1, e2, e3⟩, -, -, -⟩ := idx_facts t
  have ha : a.val = 0 := by have := a.isLt; omega
  have hc : c'.val = 0 := by have := c'.isLt; omega
  unfold iblk
  rw [View.read_apply]
  show V m c main_arg0 _ = m (c.tc.loc main_arg0) _
  unfold V
  congr 1
  funext d
  apply Fin.ext
  match d with
  | ⟨0, _⟩ => show win0_0.index t 0 * 1 + 1 * a.val = t.val; rw [e0, ha]; omega
  | ⟨1, _⟩ => show win0_0.index t 1 * 1 + 1 * c'.val = 0; rw [e1, hc]
  | ⟨2, _⟩ => show win0_0.index t 2 * 768 + 1 * p.val = p.val; rw [e2]; omega
  | ⟨3, _⟩ => show win0_0.index t 3 * 768 + 1 * q.val = q.val; rw [e3]; omega

/-- The second input's block at point t is image t of the second argument. -/
theorem iblk1_apply (c : Dev nD) (t : Fin cfg0.N) (a c' : Fin 1) (p q : Fin 768) :
    (iblk m c 1 t : Vec Ideal S1x1x768x768 .f32) (ix4 a c' p q)
      = (m ((c : Thread nD τ).loc main_arg1) : S4x1x768x768.Idx → Elt Ideal .f32) (ix4 (imgOf t) 0 p q) := by
  obtain ⟨-, ⟨e0, e1, e2, e3⟩, -, -⟩ := idx_facts t
  have ha : a.val = 0 := by have := a.isLt; omega
  have hc : c'.val = 0 := by have := c'.isLt; omega
  unfold iblk
  rw [View.read_apply]
  show V m c main_arg1 _ = m (c.tc.loc main_arg1) _
  unfold V
  congr 1
  funext d
  apply Fin.ext
  match d with
  | ⟨0, _⟩ => show win0_1.index t 0 * 1 + 1 * a.val = t.val; rw [e0, ha]; omega
  | ⟨1, _⟩ => show win0_1.index t 1 * 1 + 1 * c'.val = 0; rw [e1, hc]
  | ⟨2, _⟩ => show win0_1.index t 2 * 768 + 1 * p.val = p.val; rw [e2]; omega
  | ⟨3, _⟩ => show win0_1.index t 3 * 768 + 1 * q.val = q.val; rw [e3]; omega

/-- The two input blocks at point t, as images. -/
theorem iblk0_img (c : Dev nD) (t : Fin cfg0.N) :
    (fun p q : Fin 768 => (iblk m c 0 t : Vec Ideal S1x1x768x768 .f32) (ix4 0 0 p q))
      = Cert.Spec.img (m ((c : Thread nD τ).loc main_arg0)) (imgOf t) :=
  funext fun p => funext fun q => iblk0_apply m c t 0 0 p q

theorem iblk1_img (c : Dev nD) (t : Fin cfg0.N) :
    (fun p q : Fin 768 => (iblk m c 1 t : Vec Ideal S1x1x768x768 .f32) (ix4 0 0 p q))
      = Cert.Spec.img (m ((c : Thread nD τ).loc main_arg1)) (imgOf t) :=
  funext fun p => funext fun q => iblk1_apply m c t 0 0 p q

/-- Where pixel (p, q) of the first output's block at point t lies in the array: pixel (p, q) of image t. -/
theorem emb2 (t : Fin cfg0.N) (a c' : Fin 1) (p q : Fin 768) :
    ((cfg0.win 2).blk t).view.emb (ix4 a c' p q : S1x1x768x768.Idx) = (ix4 (imgOf t) 0 p q : S4x1x768x768.Idx) := by
  obtain ⟨-, -, ⟨e0, e1, e2, e3⟩, -⟩ := idx_facts t
  have ha : a.val = 0 := by have := a.isLt; omega
  have hc : c'.val = 0 := by have := c'.isLt; omega
  funext d
  apply Fin.ext
  match d with
  | ⟨0, _⟩ => show win0_2.index t 0 * 1 + 1 * a.val = t.val; rw [e0, ha]; omega
  | ⟨1, _⟩ => show win0_2.index t 1 * 1 + 1 * c'.val = 0; rw [e1, hc]
  | ⟨2, _⟩ => show win0_2.index t 2 * 768 + 1 * p.val = p.val; rw [e2]; omega
  | ⟨3, _⟩ => show win0_2.index t 3 * 768 + 1 * q.val = q.val; rw [e3]; omega

/-- The same for the second output. -/
theorem emb3 (t : Fin cfg0.N) (a c' : Fin 1) (p q : Fin 768) :
    ((cfg0.win 3).blk t).view.emb (ix4 a c' p q : S1x1x768x768.Idx) = (ix4 (imgOf t) 0 p q : S4x1x768x768.Idx) := by
  obtain ⟨-, -, -, ⟨e0, e1, e2, e3⟩⟩ := idx_facts t
  have ha : a.val = 0 := by have := a.isLt; omega
  have hc : c'.val = 0 := by have := c'.isLt; omega
  funext d
  apply Fin.ext
  match d with
  | ⟨0, _⟩ => show win0_3.index t 0 * 1 + 1 * a.val = t.val; rw [e0, ha]; omega
  | ⟨1, _⟩ => show win0_3.index t 1 * 1 + 1 * c'.val = 0; rw [e1, hc]
  | ⟨2, _⟩ => show win0_3.index t 2 * 768 + 1 * p.val = p.val; rw [e2]; omega
  | ⟨3, _⟩ => show win0_3.index t 3 * 768 + 1 * q.val = q.val; rw [e3]; omega

/-- What point t writes back to the first result is block t of the convolution of the argument arrays. -/
theorem flushed2_eq (c : Dev nD) (t : Fin cfg0.N) :
    (dats m 0 c).flushed 2 t = ((cfg0.win 2).blk t).view.read (Elt Ideal)
      (Cert.Spec.convArr (m ((c : Thread nD τ).loc main_arg0)) (m ((c : Thread nD τ).loc main_arg1))) := by
  rw [Value.flushed2]
  have key : ∀ j : S1x1x768x768.Idx, out0_2 (iblk m c 0 t) (iblk m c 1 t) j
      = Cert.Spec.convArr (m ((c : Thread nD τ).loc main_arg0)) (m ((c : Thread nD τ).loc main_arg1))
          (((cfg0.win 2).blk t).view.emb j) := by
    intro j
    obtain ⟨a, c', p, q, rfl⟩ : ∃ (a c' : Fin 1) (p q : Fin 768), j = ix4 a c' p q := ⟨j 0, j 1, j 2, j 3, eq_ix4 j⟩
    refine (Body.out2_apply (iblk m c 0 t) (iblk m c 1 t) a c' p q).trans ?_
    rw [emb2 t a c' p q, Cert.Spec.convArr_ix4, iblk0_img, iblk1_img]
  exact funext key

/-- What point t writes back to the second result is block t of the mask. -/
theorem flushed3_eq (c : Dev nD) (t : Fin cfg0.N) :
    (dats m 0 c).flushed 3 t = ((cfg0.win 3).blk t).view.read (Elt Ideal)
      (Cert.Spec.maskArr (m ((c : Thread nD τ).loc main_arg0)) (m ((c : Thread nD τ).loc main_arg1))) := by
  rw [Value.flushed3]
  have key : ∀ j : S1x1x768x768.Idx, out0_3 (iblk m c 0 t) (iblk m c 1 t) j
      = Cert.Spec.maskArr (m ((c : Thread nD τ).loc main_arg0)) (m ((c : Thread nD τ).loc main_arg1))
          (((cfg0.win 3).blk t).view.emb j) := by
    intro j
    obtain ⟨a, c', p, q, rfl⟩ : ∃ (a c' : Fin 1) (p q : Fin 768), j = ix4 a c' p q := ⟨j 0, j 1, j 2, j 3, eq_ix4 j⟩
    refine (Body.out3_apply (iblk m c 0 t) (iblk m c 1 t) a c' p q).trans ?_
    rw [emb3 t a c' p q, Cert.Spec.maskArr_ix4, iblk0_img, iblk1_img]
  exact funext key

/-- An index of the first result lies in point t's block iff each coordinate lies in the block's range. -/
theorem mem_blk2 (t : Fin cfg0.N) (i : S4x1x768x768.Idx) :
    i ∈ ((cfg0.win 2).blk t).view.set ↔ ∀ a : Fin 4, win0_2.index t a * S1x1x768x768.size a ≤ (i a).val
      ∧ (i a).val < win0_2.index t a * S1x1x768x768.size a + S1x1x768x768.size a := by
  show i ∈ ((View.whole main_v0_0).slice (win0_2.rect t)).set ↔ _
  rw [View.set_slice_whole, Rect.mem_set_unit]
  exact Iff.rfl

theorem mem_blk3 (t : Fin cfg0.N) (i : S4x1x768x768.Idx) :
    i ∈ ((cfg0.win 3).blk t).view.set ↔ ∀ a : Fin 4, win0_3.index t a * S1x1x768x768.size a ≤ (i a).val
      ∧ (i a).val < win0_3.index t a * S1x1x768x768.size a + S1x1x768x768.size a := by
  show i ∈ ((View.whole main_v0_1).slice (win0_3.rect t)).set ↔ _
  rw [View.set_slice_whole, Rect.mem_set_unit]
  exact Iff.rfl

/-- The point that handles the image an index lies in. -/
def ptOf (i : S4x1x768x768.Idx) : Fin cfg0.N := ⟨(i 0).val, Nat.lt_of_lt_of_eq (i 0).isLt N_0.symm⟩

/-- Every index of the first result lies in the block of the point that handles its image. -/
theorem cover2 (i : S4x1x768x768.Idx) : ∃ t : Fin cfg0.N, (cfg0.win 2).flush t = true ∧ i ∈ ((cfg0.win 2).blk t).view.set := by
  refine ⟨ptOf i, flush0_2 _, ?_⟩
  obtain ⟨-, -, ⟨e0, e1, e2, e3⟩, -⟩ := idx_facts (ptOf i)
  have h1 : (i 1).val < 1 := (i 1).isLt
  have h2 : (i 2).val < 768 := (i 2).isLt
  have h3 : (i 3).val < 768 := (i 3).isLt
  rw [mem_blk2]
  intro a
  match a with
  | ⟨0, _⟩ => show win0_2.index (ptOf i) 0 * 1 ≤ (i 0).val ∧ (i 0).val < win0_2.index (ptOf i) 0 * 1 + 1; rw [e0]; show (i 0).val * 1 ≤ (i 0).val ∧ (i 0).val < (i 0).val * 1 + 1; omega
  | ⟨1, _⟩ => show win0_2.index (ptOf i) 1 * 1 ≤ (i 1).val ∧ (i 1).val < win0_2.index (ptOf i) 1 * 1 + 1; rw [e1]; omega
  | ⟨2, _⟩ => show win0_2.index (ptOf i) 2 * 768 ≤ (i 2).val ∧ (i 2).val < win0_2.index (ptOf i) 2 * 768 + 768; rw [e2]; omega
  | ⟨3, _⟩ => show win0_2.index (ptOf i) 3 * 768 ≤ (i 3).val ∧ (i 3).val < win0_2.index (ptOf i) 3 * 768 + 768; rw [e3]; omega

theorem cover3 (i : S4x1x768x768.Idx) : ∃ t : Fin cfg0.N, (cfg0.win 3).flush t = true ∧ i ∈ ((cfg0.win 3).blk t).view.set := by
  refine ⟨ptOf i, flush0_3 _, ?_⟩
  obtain ⟨-, -, -, ⟨e0, e1, e2, e3⟩⟩ := idx_facts (ptOf i)
  have h1 : (i 1).val < 1 := (i 1).isLt
  have h2 : (i 2).val < 768 := (i 2).isLt
  have h3 : (i 3).val < 768 := (i 3).isLt
  rw [mem_blk3]
  intro a
  match a with
  | ⟨0, _⟩ => show win0_3.index (ptOf i) 0 * 1 ≤ (i 0).val ∧ (i 0).val < win0_3.index (ptOf i) 0 * 1 + 1; rw [e0]; show (i 0).val * 1 ≤ (i 0).val ∧ (i 0).val < (i 0).val * 1 + 1; omega
  | ⟨1, _⟩ => show win0_3.index (ptOf i) 1 * 1 ≤ (i 1).val ∧ (i 1).val < win0_3.index (ptOf i) 1 * 1 + 1; rw [e1]; omega
  | ⟨2, _⟩ => show win0_3.index (ptOf i) 2 * 768 ≤ (i 2).val ∧ (i 2).val < win0_3.index (ptOf i) 2 * 768 + 768; rw [e2]; omega
  | ⟨3, _⟩ => show win0_3.index (ptOf i) 3 * 768 ≤ (i 3).val ∧ (i 3).val < win0_3.index (ptOf i) 3 * 768 + 768; rw [e3]; omega

/-- The first result array after the run is the convolution of the argument arrays. -/
theorem final2 (c : Dev nD) : (dats m 0 c).arrAt 2 cfg0.N
    = Cert.Spec.convArr (m ((c : Thread nD τ).loc main_arg0)) (m ((c : Thread nD τ).loc main_arg1)) :=
  (dats m 0 c).arrAt_eq_of_cover 2 _ (fun t _ => flushed2_eq m c t) cover2

/-- The second result array after the run is its mask. -/
theorem final3 (c : Dev nD) : (dats m 0 c).arrAt 3 cfg0.N
    = Cert.Spec.maskArr (m ((c : Thread nD τ).loc main_arg0)) (m ((c : Thread nD τ).loc main_arg1)) :=
  (dats m 0 c).arrAt_eq_of_cover 3 _ (fun t _ => flushed3_eq m c t) cover3

/-- The kernel's run at the extended reals: the two result arrays end at the convolution and its mask of the
    argument arrays, and the arguments are unchanged. -/
theorem run :
    θ_run defs (onTc (τ := τ) (main (F := Ideal))) ⟨m, fun _ => 0, ρ⟩ fun r => ∀ c : Dev nD,
      r.2.mem ((c : Thread nD τ).loc main_v0_0)
        = Cert.Spec.convArr (m ((c : Thread nD τ).loc main_arg0)) (m ((c : Thread nD τ).loc main_arg1))
      ∧ r.2.mem ((c : Thread nD τ).loc main_v0_1)
        = Cert.Spec.maskArr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2.1.trans (final3 m c), (h c).2.2.1, (h c).2.2.2⟩)
    (Value.run_blocks m ρ)

end Cert.KernelIdeal.Arr

end
-- ==== Proof.RefTerm.lean ====
import proofs.«119038_j90108413870322_1_alg».proof.Proof.Gen.ReferenceIdeal

/-!
The reference's result as one pure term of its two arguments, named stage by stage: the ReLU, the zero border, the 25
shifted views stacked along a new axis (sixteen, then nine, then the two stacks joined), the Gaussian weights from the
table of squared distances and the squared scales, the product summed over the stacking axis, and the threshold.
-/

noncomputable section

namespace Cert.ReferenceIdeal.Term

open Cert.ReferenceIdeal Cert.ReferenceIdeal.Gen Idealize.ShloMosaic

variable {F : FTy → Type} [FloatOps F]

/-- The stack clamped below at zero. -/
def relu (x : FVec F S4x1x768x768 .f32) : FVec F S4x1x768x768 .f32 :=
  maximumf x (broadcastInDim S4x1x768x768 ![] bcast_S_S4x1x768x768 (constant S_ .f32 0x00000000#32))

/-- ... with a border of two zeros around each image. -/
def padded (x : FVec F S4x1x768x768 .f32) : FVec F S4x1x772x772 .f32 :=
  pad S4x1x772x772 ![0, 0, 2, 2] ![0, 0, 2, 2] ![0, 0, 0, 0] (relu x) (sitofp .f32 (constantI S_ 32 0#32))
    pads_S4x1x768x768_S4x1x772x772_000_000_220_220 h_S_

/-- The bordered stack shifted by (dy, dx) and cut back to 768 × 768, as a stack of one plane. -/
def patch (x : FVec F S4x1x768x768 .f32) (dy dx : Nat) (h : S4x1x772x772.Slices ![0, 0, dy, dx] S4x1x768x768) :
    FVec F S4x1x1x768x768 .f32 :=
  broadcastInDim S4x1x1x768x768 ![0, 1, 3, 4] bcast_S4x1x768x768_S4x1x1x768x768_0_1_3_4
    (extractStridedSlice S4x1x768x768 ![0, 0, dy, dx] (padded x) h)

/-- Taps 0 to 15 stacked. -/
def first16 (x : FVec F S4x1x768x768 .f32) : FVec F S4x1x16x768x768 .f32 :=
  concatenate S4x1x16x768x768 2
    [⟨S4x1x1x768x768, patch x 0 0 slices_S4x1x772x772_S4x1x768x768_0_0_0_0⟩, ⟨S4x1x1x768x768, patch x 0 1 slices_S4x1x772x772_S4x1x768x768_0_0_0_1⟩, ⟨S4x1x1x768x768, patch x 0 2 slices_S4x1x772x772_S4x1x768x768_0_0_0_2⟩, ⟨S4x1x1x768x768, patch x 0 3 slices_S4x1x772x772_S4x1x768x768_0_0_0_3⟩,
     ⟨S4x1x1x768x768, patch x 0 4 slices_S4x1x772x772_S4x1x768x768_0_0_0_4⟩, ⟨S4x1x1x768x768, patch x 1 0 slices_S4x1x772x772_S4x1x768x768_0_0_1_0⟩, ⟨S4x1x1x768x768, patch x 1 1 slices_S4x1x772x772_S4x1x768x768_0_0_1_1⟩, ⟨S4x1x1x768x768, patch x 1 2 slices_S4x1x772x772_S4x1x768x768_0_0_1_2⟩,
     ⟨S4x1x1x768x768, patch x 1 3 slices_S4x1x772x772_S4x1x768x768_0_0_1_3⟩, ⟨S4x1x1x768x768, patch x 1 4 slices_S4x1x772x772_S4x1x768x768_0_0_1_4⟩, ⟨S4x1x1x768x768, patch x 2 0 slices_S4x1x772x772_S4x1x768x768_0_0_2_0⟩, ⟨S4x1x1x768x768, patch x 2 1 slices_S4x1x772x772_S4x1x768x768_0_0_2_1⟩,
     ⟨S4x1x1x768x768, patch x 2 2 slices_S4x1x772x772_S4x1x768x768_0_0_2_2⟩, ⟨S4x1x1x768x768, patch x 2 3 slices_S4x1x772x772_S4x1x768x768_0_0_2_3⟩, ⟨S4x1x1x768x768, patch x 2 4 slices_S4x1x772x772_S4x1x768x768_0_0_2_4⟩, ⟨S4x1x1x768x768, patch x 3 0 slices_S4x1x772x772_S4x1x768x768_0_0_3_0⟩]
    concatenates_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x16x768x768_d2

/-- Taps 16 to 24 stacked. -/
def last9 (x : FVec F S4x1x768x768 .f32) : FVec F S4x1x9x768x768 .f32 :=
  concatenate S4x1x9x768x768 2
    [⟨S4x1x1x768x768, patch x 3 1 slices_S4x1x772x772_S4x1x768x768_0_0_3_1⟩, ⟨S4x1x1x768x768, patch x 3 2 slices_S4x1x772x772_S4x1x768x768_0_0_3_2⟩, ⟨S4x1x1x768x768, patch x 3 3 slices_S4x1x772x772_S4x1x768x768_0_0_3_3⟩,
     ⟨S4x1x1x768x768, patch x 3 4 slices_S4x1x772x772_S4x1x768x768_0_0_3_4⟩, ⟨S4x1x1x768x768, patch x 4 0 slices_S4x1x772x772_S4x1x768x768_0_0_4_0⟩, ⟨S4x1x1x768x768, patch x 4 1 slices_S4x1x772x772_S4x1x768x768_0_0_4_1⟩,
     ⟨S4x1x1x768x768, patch x 4 2 slices_S4x1x772x772_S4x1x768x768_0_0_4_2⟩, ⟨S4x1x1x768x768, patch x 4 3 slices_S4x1x772x772_S4x1x768x768_0_0_4_3⟩, ⟨S4x1x1x768x768, patch x 4 4 slices_S4x1x772x772_S4x1x768x768_0_0_4_4⟩]
    concatenates_S4x1x1x768x768_S4x1x1x768x768_S4x1x1x768x768_S4x1x1x768x768_S4x1x1x768x768_S4x1x1x768x768_S4x1x1x768x768_S4x1x1x768x768_S4x1x1x768x768_S4x1x9x768x768_d2

/-- All 25 shifted views, tap n on plane n. -/
def patches (x : FVec F S4x1x768x768 .f32) : FVec F S4x1x25x768x768 .f32 :=
  concatenate S4x1x25x768x768 2 [⟨S4x1x16x768x768, first16 x⟩, ⟨S4x1x9x768x768, last9 x⟩]
    concatenates_S4x1x16x768x768_S4x1x9x768x768_S4x1x25x768x768_d2

/-- The table of squared distances, negated, one entry per plane. -/
def negR2 : FVec F S1x1x25x1x1 .f32 :=
  Host.negf (broadcastInDim S1x1x25x1x1 ![2] bcast_S25_S1x1x25x1x1_2 (fun i => FloatOps.ofBits .f32 (lit0 (S25.rowMajor i))))

/-- The Gaussian's denominator 2·(s·s) + ε per pixel, as a stack of one plane. -/
def denom (s : FVec F S4x1x768x768 .f32) : FVec F S4x1x1x768x768 .f32 :=
  addf (mulf (broadcastInDim S4x1x1x768x768 ![] bcast_S_S4x1x1x768x768 (constant S_ .f32 0x40000000#32))
      (broadcastInDim S4x1x1x768x768 ![0, 1, 3, 4] bcast_S4x1x768x768_S4x1x1x768x768_0_1_3_4 (mulf s s)))
    (broadcastInDim S4x1x1x768x768 ![] bcast_S_S4x1x1x768x768 (constant S_ .f32 0x358637BD#32))

/-- The 25 weights per pixel. -/
def weights (s : FVec F S4x1x768x768 .f32) : FVec F S4x1x25x768x768 .f32 :=
  Host.exp (Host.divf (broadcastInDim S4x1x25x768x768 ![0, 1, 2, 3, 4] bcast_S1x1x25x1x1_S4x1x25x768x768_0_1_2_3_4 negR2)
    (broadcastInDim S4x1x25x768x768 ![0, 1, 2, 3, 4] bcast_S4x1x1x768x768_S4x1x25x768x768_0_1_2_3_4 (denom s)))

/-- The first result: views times weights, summed over the planes from zero. -/
def conv (x s : FVec F S4x1x768x768 .f32) : FVec F S4x1x768x768 .f32 :=
  Host.reduceAdd (mulf (patches x) (weights s)) (constant S_ .f32 0x00000000#32) reducesTo_S4x1x25x768x768_S4x1x768x768_d2 h_S_

/-- The second result: the bit of conv ≥ one half, as a number. -/
def mask (x s : FVec F S4x1x768x768 .f32) : FVec F S4x1x768x768 .f32 :=
  uitofp .f32 (cmpf .oge (conv x s) (broadcastInDim S4x1x768x768 ![] bcast_S_S4x1x768x768 (constant S_ .f32 0x3F000000#32)))

end Cert.ReferenceIdeal.Term

end
-- ==== Proof.RefRun.lean ====
import proofs.«119038_j90108413870322_1_alg».proof.Proof.RefTerm
import Idealize.ShloMosaic.Lib.StableHlo.Run

/-!
The reference has no kernel: its run is a straight line of 81 host operations (the two outlined functions' operations
listed where they are called, over the call's own buffers). The run is read back buffer by buffer: each operation
rewrites its result buffer and leaves the rest, so the two results end at the composition of the operations' functions
over the two arguments' launch contents, which is the composed term stage by stage.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first window's 63 operations in order: the table of squared distances, the ReLU (its zero, the zero broadcast,
    the maximum), the border (the integer zero, its conversion, the padding), the 25 shifted views, each view as a stack
    of one plane, the stacks of sixteen and of nine and their join, the table broadcast and negated, the scales squared. -/
abbrev ops0 : List (HloOp τ sig (Elt F)) :=
  [ StableHlo.nullary main_cst (fun i => FloatOps.ofBits .f32 (lit0 (S25.rowMajor i))),
    TRef.nullary main_call0.cst (constant S_ .f32 0x00000000#32),
    TRef.unary main_call0.cst main_call0.v0 (broadcastInDim S4x1x768x768 ![] bcast_S_S4x1x768x768),
    TRef.binary (.of main_arg0 : TRef sig ⟨S4x1x768x768, .f32⟩) main_call0.v0 main_call0.v1 maximumf,
    StableHlo.nullary main_c (constantI S_ 32 0#32),
    TRef.unary (.of main_c : TRef sig ⟨S_, .i32⟩) main_call1.v0 (sitofp .f32),
    TRef.binary (.of main_v0 : TRef sig ⟨S4x1x768x768, .f32⟩) main_call1.v0 main_call1.v1 (fun x v => pad S4x1x772x772 ![0, 0, 2, 2] ![0, 0, 2, 2] ![0, 0, 0, 0] x v pads_S4x1x768x768_S4x1x772x772_000_000_220_220 h_S_),
    StableHlo.unary main_v1 main_v2 ((extractStridedSlice S4x1x768x768 ![0, 0, 0, 0] · slices_S4x1x772x772_S4x1x768x768_0_0_0_0) : (⟨S4x1x772x772, .f32⟩ : BufTy).Contents (Elt F) → (⟨S4x1x768x768, .f32⟩ : BufTy).Contents (Elt F)),
    StableHlo.unary main_v1 main_v3 ((extractStridedSlice S4x1x768x768 ![0, 0, 0, 1] · slices_S4x1x772x772_S4x1x768x768_0_0_0_1) : (⟨S4x1x772x772, .f32⟩ : BufTy).Contents (Elt F) → (⟨S4x1x768x768, .f32⟩ : BufTy).Contents (Elt F)),
    StableHlo.unary main_v1 main_v4 ((extractStridedSlice S4x1x768x768 ![0, 0, 0, 2] · slices_S4x1x772x772_S4x1x768x768_0_0_0_2) : (⟨S4x1x772x772, .f32⟩ : BufTy).Contents (Elt F) → (⟨S4x1x768x768, .f32⟩ : BufTy).Contents (Elt F)),
    StableHlo.unary main_v1 main_v5 ((extractStridedSlice S4x1x768x768 ![0, 0, 0, 3] · slices_S4x1x772x772_S4x1x768x768_0_0_0_3) : (⟨S4x1x772x772, .f32⟩ : BufTy).Contents (Elt F) → (⟨S4x1x768x768, .f32⟩ : BufTy).Contents (Elt F)),
    StableHlo.unary main_v1 main_v6 ((extractStridedSlice S4x1x768x768 ![0, 0, 0, 4] · slices_S4x1x772x772_S4x1x768x768_0_0_0_4) : (⟨S4x1x772x772, .f32⟩ : BufTy).Contents (Elt F) → (⟨S4x1x768x768, .f32⟩ : BufTy).Contents (Elt F)),
    StableHlo.unary main_v1 main_v7 ((extractStridedSlice S4x1x768x768 ![0, 0, 1, 0] · slices_S4x1x772x772_S4x1x768x768_0_0_1_0) : (⟨S4x1x772x772, .f32⟩ : BufTy).Contents (Elt F) → (⟨S4x1x768x768, .f32⟩ : BufTy).Contents (Elt F)),
    StableHlo.unary main_v1 main_v8 ((extractStridedSlice S4x1x768x768 ![0, 0, 1, 1] · slices_S4x1x772x772_S4x1x768x768_0_0_1_1) : (⟨S4x1x772x772, .f32⟩ : BufTy).Contents (Elt F) → (⟨S4x1x768x768, .f32⟩ : BufTy).Contents (Elt F)),
    StableHlo.unary main_v1 main_v9 ((extractStridedSlice S4x1x768x768 ![0, 0, 1, 2] · slices_S4x1x772x772_S4x1x768x768_0_0_1_2) : (⟨S4x1x772x772, .f32⟩ : BufTy).Contents (Elt F) → (⟨S4x1x768x768, .f32⟩ : BufTy).Contents (Elt F)),
    StableHlo.unary main_v1 main_v10 ((extractStridedSlice S4x1x768x768 ![0, 0, 1, 3] · slices_S4x1x772x772_S4x1x768x768_0_0_1_3) : (⟨S4x1x772x772, .f32⟩ : BufTy).Contents (Elt F) → (⟨S4x1x768x768, .f32⟩ : BufTy).Contents (Elt F)),
    StableHlo.unary main_v1 main_v11 ((extractStridedSlice S4x1x768x768 ![0, 0, 1, 4] · slices_S4x1x772x772_S4x1x768x768_0_0_1_4) : (⟨S4x1x772x772, .f32⟩ : BufTy).Contents (Elt F) → (⟨S4x1x768x768, .f32⟩ : BufTy).Contents (Elt F)),
    StableHlo.unary main_v1 main_v12 ((extractStridedSlice S4x1x768x768 ![0, 0, 2, 0] · slices_S4x1x772x772_S4x1x768x768_0_0_2_0) : (⟨S4x1x772x772, .f32⟩ : BufTy).Contents (Elt F) → (⟨S4x1x768x768, .f32⟩ : BufTy).Contents (Elt F)),
    StableHlo.unary main_v1 main_v13 ((extractStridedSlice S4x1x768x768 ![0, 0, 2, 1] · slices_S4x1x772x772_S4x1x768x768_0_0_2_1) : (⟨S4x1x772x772, .f32⟩ : BufTy).Contents (Elt F) → (⟨S4x1x768x768, .f32⟩ : BufTy).Contents (Elt F)),
    StableHlo.unary main_v1 main_v14 ((extractStridedSlice S4x1x768x768 ![0, 0, 2, 2] · slices_S4x1x772x772_S4x1x768x768_0_0_2_2) : (⟨S4x1x772x772, .f32⟩ : BufTy).Contents (Elt F) → (⟨S4x1x768x768, .f32⟩ : BufTy).Contents (Elt F)),
    StableHlo.unary main_v1 main_v15 ((extractStridedSlice S4x1x768x768 ![0, 0, 2, 3] · slices_S4x1x772x772_S4x1x768x768_0_0_2_3) : (⟨S4x1x772x772, .f32⟩ : BufTy).Contents (Elt F) → (⟨S4x1x768x768, .f32⟩ : BufTy).Contents (Elt F)),
    StableHlo.unary main_v1 main_v16 ((extractStridedSlice S4x1x768x768 ![0, 0, 2, 4] · slices_S4x1x772x772_S4x1x768x768_0_0_2_4) : (⟨S4x1x772x772, .f32⟩ : BufTy).Contents (Elt F) → (⟨S4x1x768x768, .f32⟩ : BufTy).Contents (Elt F)),
    StableHlo.unary main_v1 main_v17 ((extractStridedSlice S4x1x768x768 ![0, 0, 3, 0] · slices_S4x1x772x772_S4x1x768x768_0_0_3_0) : (⟨S4x1x772x772, .f32⟩ : BufTy).Contents (Elt F) → (⟨S4x1x768x768, .f32⟩ : BufTy).Contents (Elt F)),
    StableHlo.unary main_v1 main_v18 ((extractStridedSlice S4x1x768x768 ![0, 0, 3, 1] · slices_S4x1x772x772_S4x1x768x768_0_0_3_1) : (⟨S4x1x772x772, .f32⟩ : BufTy).Contents (Elt F) → (⟨S4x1x768x768, .f32⟩ : BufTy).Contents (Elt F)),
    StableHlo.unary main_v1 main_v19 ((extractStridedSlice S4x1x768x768 ![0, 0, 3, 2] · slices_S4x1x772x772_S4x1x768x768_0_0_3_2) : (⟨S4x1x772x772, .f32⟩ : BufTy).Contents (Elt F) → (⟨S4x1x768x768, .f32⟩ : BufTy).Contents (Elt F)),
    StableHlo.unary main_v1 main_v20 ((extractStridedSlice S4x1x768x768 ![0, 0, 3, 3] · slices_S4x1x772x772_S4x1x768x768_0_0_3_3) : (⟨S4x1x772x772, .f32⟩ : BufTy).Contents (Elt F) → (⟨S4x1x768x768, .f32⟩ : BufTy).Contents (Elt F)),
    StableHlo.unary main_v1 main_v21 ((extractStridedSlice S4x1x768x768 ![0, 0, 3, 4] · slices_S4x1x772x772_S4x1x768x768_0_0_3_4) : (⟨S4x1x772x772, .f32⟩ : BufTy).Contents (Elt F) → (⟨S4x1x768x768, .f32⟩ : BufTy).Contents (Elt F)),
    StableHlo.unary main_v1 main_v22 ((extractStridedSlice S4x1x768x768 ![0, 0, 4, 0] · slices_S4x1x772x772_S4x1x768x768_0_0_4_0) : (⟨S4x1x772x772, .f32⟩ : BufTy).Contents (Elt F) → (⟨S4x1x768x768, .f32⟩ : BufTy).Contents (Elt F)),
    StableHlo.unary main_v1 main_v23 ((extractStridedSlice S4x1x768x768 ![0, 0, 4, 1] · slices_S4x1x772x772_S4x1x768x768_0_0_4_1) : (⟨S4x1x772x772, .f32⟩ : BufTy).Contents (Elt F) → (⟨S4x1x768x768, .f32⟩ : BufTy).Contents (Elt F)),
    StableHlo.unary main_v1 main_v24 ((extractStridedSlice S4x1x768x768 ![0, 0, 4, 2] · slices_S4x1x772x772_S4x1x768x768_0_0_4_2) : (⟨S4x1x772x772, .f32⟩ : BufTy).Contents (Elt F) → (⟨S4x1x768x768, .f32⟩ : BufTy).Contents (Elt F)),
    StableHlo.unary main_v1 main_v25 ((extractStridedSlice S4x1x768x768 ![0, 0, 4, 3] · slices_S4x1x772x772_S4x1x768x768_0_0_4_3) : (⟨S4x1x772x772, .f32⟩ : BufTy).Contents (Elt F) → (⟨S4x1x768x768, .f32⟩ : BufTy).Contents (Elt F)),
    StableHlo.unary main_v1 main_v26 ((extractStridedSlice S4x1x768x768 ![0, 0, 4, 4] · slices_S4x1x772x772_S4x1x768x768_0_0_4_4) : (⟨S4x1x772x772, .f32⟩ : BufTy).Contents (Elt F) → (⟨S4x1x768x768, .f32⟩ : BufTy).Contents (Elt F)),
    StableHlo.unary main_v2 main_v27 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v3 main_v28 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v4 main_v29 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v5 main_v30 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v6 main_v31 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v7 main_v32 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v8 main_v33 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v9 main_v34 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v10 main_v35 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v11 main_v36 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v12 main_v37 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v13 main_v38 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v14 main_v39 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v15 main_v40 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v16 main_v41 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v17 main_v42 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v18 main_v43 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v19 main_v44 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v20 main_v45 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v21 main_v46 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v22 main_v47 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v23 main_v48 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v24 main_v49 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v25 main_v50 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v26 main_v51 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.nary ![main_v27, main_v28, main_v29, main_v30, main_v31, main_v32, main_v33, main_v34, main_v35, main_v36, main_v37, main_v38, main_v39, main_v40, main_v41, main_v42] main_v52 (fun u => concatenate S4x1x16x768x768 2 [⟨S4x1x1x768x768, u 0⟩, ⟨S4x1x1x768x768, u 1⟩, ⟨S4x1x1x768x768, u 2⟩, ⟨S4x1x1x768x768, u 3⟩, ⟨S4x1x1x768x768, u 4⟩, ⟨S4x1x1x768x768, u 5⟩, ⟨S4x1x1x768x768, u 6⟩, ⟨S4x1x1x768x768, u 7⟩, ⟨S4x1x1x768x768, u 8⟩, ⟨S4x1x1x768x768, u 9⟩, ⟨S4x1x1x768x768, u 10⟩, ⟨S4x1x1x768x768, u 11⟩, ⟨S4x1x1x768x768, u 12⟩, ⟨S4x1x1x768x768, u 13⟩, ⟨S4x1x1x768x768, u 14⟩, ⟨S4x1x1x768x768, u 15⟩] concatenates_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x16x768x768_d2),
    StableHlo.nary ![main_v43, main_v44, main_v45, main_v46, main_v47, main_v48, main_v49, main_v50, main_v51] main_v53 (fun u => concatenate S4x1x9x768x768 2 [⟨S4x1x1x768x768, u 0⟩, ⟨S4x1x1x768x768, u 1⟩, ⟨S4x1x1x768x768, u 2⟩, ⟨S4x1x1x768x768, u 3⟩, ⟨S4x1x1x768x768, u 4⟩, ⟨S4x1x1x768x768, u 5⟩, ⟨S4x1x1x768x768, u 6⟩, ⟨S4x1x1x768x768, u 7⟩, ⟨S4x1x1x768x768, u 8⟩] concatenates_S4x1x1x768x768_S4x1x1x768x768_S4x1x1x768x768_S4x1x1x768x768_S4x1x1x768x768_S4x1x1x768x768_S4x1x1x768x768_S4x1x1x768x768_S4x1x1x768x768_S4x1x9x768x768_d2),
    StableHlo.binary main_v52 main_v53 main_v54 ((fun a b => concatenate S4x1x25x768x768 2 [⟨S4x1x16x768x768, a⟩, ⟨S4x1x9x768x768, b⟩] concatenates_S4x1x16x768x768_S4x1x9x768x768_S4x1x25x768x768_d2) : (⟨S4x1x16x768x768, .f32⟩ : BufTy).Contents (Elt F) → (⟨S4x1x9x768x768, .f32⟩ : BufTy).Contents (Elt F) → (⟨S4x1x25x768x768, .f32⟩ : BufTy).Contents (Elt F)),
    StableHlo.unary main_cst main_v55 (broadcastInDim S1x1x25x1x1 ![2] bcast_S25_S1x1x25x1x1_2 : (⟨S25, .f32⟩ : BufTy).Contents (Elt F) → (⟨S1x1x25x1x1, .f32⟩ : BufTy).Contents (Elt F)),
    StableHlo.unary main_v55 main_v56 (Host.negf : (⟨S1x1x25x1x1, .f32⟩ : BufTy).Contents (Elt F) → (⟨S1x1x25x1x1, .f32⟩ : BufTy).Contents (Elt F)),
    StableHlo.binary main_arg1 main_arg1 main_v57 (mulf : (⟨S4x1x768x768, .f32⟩ : BufTy).Contents (Elt F) → (⟨S4x1x768x768, .f32⟩ : BufTy).Contents (Elt F) → (⟨S4x1x768x768, .f32⟩ : BufTy).Contents (Elt F)) ]

/-- The second window's 18 operations in order: the Gaussian's denominator, the weights, the weighted views summed over
    the planes, the threshold. -/
abbrev ops1 : List (HloOp τ sig (Elt F)) :=
  [ StableHlo.unary main_v57 main_v58 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.nullary main_cst_0 (constant S_ .f32 0x40000000#32),
    StableHlo.unary main_cst_0 main_v59 (broadcastInDim S4x1x1x768x768 ![] bcast_S_S4x1x1x768x768 : (⟨S_, .f32⟩ : BufTy).Contents (Elt F) → (⟨S4x1x1x768x768, .f32⟩ : BufTy).Contents (Elt F)),
    StableHlo.binary main_v59 main_v58 main_v60 (mulf : (⟨S4x1x1x768x768, .f32⟩ : BufTy).Contents (Elt F) → (⟨S4x1x1x768x768, .f32⟩ : BufTy).Contents (Elt F) → (⟨S4x1x1x768x768, .f32⟩ : BufTy).Contents (Elt F)),
    StableHlo.nullary main_cst_1 (constant S_ .f32 0x358637BD#32),
    StableHlo.unary main_cst_1 main_v61 (broadcastInDim S4x1x1x768x768 ![] bcast_S_S4x1x1x768x768 : (⟨S_, .f32⟩ : BufTy).Contents (Elt F) → (⟨S4x1x1x768x768, .f32⟩ : BufTy).Contents (Elt F)),
    StableHlo.binary main_v60 main_v61 main_v62 (addf : (⟨S4x1x1x768x768, .f32⟩ : BufTy).Contents (Elt F) → (⟨S4x1x1x768x768, .f32⟩ : BufTy).Contents (Elt F) → (⟨S4x1x1x768x768, .f32⟩ : BufTy).Contents (Elt F)),
    StableHlo.unary main_v56 main_v63 (broadcastInDim S4x1x25x768x768 ![0, 1, 2, 3, 4] bcast_S1x1x25x1x1_S4x1x25x768x768_0_1_2_3_4 : (⟨S1x1x25x1x1, .f32⟩ : BufTy).Contents (Elt F) → (⟨S4x1x25x768x768, .f32⟩ : BufTy).Contents (Elt F)),
    StableHlo.unary main_v62 main_v64 (broadcastInDim S4x1x25x768x768 ![0, 1, 2, 3, 4] bcast_S4x1x1x768x768_S4x1x25x768x768_0_1_2_3_4 : (⟨S4x1x1x768x768, .f32⟩ : BufTy).Contents (Elt F) → (⟨S4x1x25x768x768, .f32⟩ : BufTy).Contents (Elt F)),
    StableHlo.binary main_v63 main_v64 main_v65 (Host.divf : (⟨S4x1x25x768x768, .f32⟩ : BufTy).Contents (Elt F) → (⟨S4x1x25x768x768, .f32⟩ : BufTy).Contents (Elt F) → (⟨S4x1x25x768x768, .f32⟩ : BufTy).Contents (Elt F)),
    StableHlo.unary main_v65 main_v66 (Host.exp : (⟨S4x1x25x768x768, .f32⟩ : BufTy).Contents (Elt F) → (⟨S4x1x25x768x768, .f32⟩ : BufTy).Contents (Elt F)),
    StableHlo.binary main_v54 main_v66 main_v67 (mulf : (⟨S4x1x25x768x768, .f32⟩ : BufTy).Contents (Elt F) → (⟨S4x1x25x768x768, .f32⟩ : BufTy).Contents (Elt F) → (⟨S4x1x25x768x768, .f32⟩ : BufTy).Contents (Elt F)),
    StableHlo.nullary main_cst_2 (constant S_ .f32 0x00000000#32),
    StableHlo.binary main_v67 main_cst_2 main_v68 ((fun x v => Host.reduceAdd x v reducesTo_S4x1x25x768x768_S4x1x768x768_d2 h_S_) : (⟨S4x1x25x768x768, .f32⟩ : BufTy).Contents (Elt F) → (⟨S_, .f32⟩ : BufTy).Contents (Elt F) → (⟨S4x1x768x768, .f32⟩ : BufTy).Contents (Elt F)),
    StableHlo.nullary main_cst_3 (constant S_ .f32 0x3F000000#32),
    StableHlo.unary main_cst_3 main_v69 (broadcastInDim S4x1x768x768 ![] bcast_S_S4x1x768x768 : (⟨S_, .f32⟩ : BufTy).Contents (Elt F) → (⟨S4x1x768x768, .f32⟩ : BufTy).Contents (Elt F)),
    StableHlo.binary main_v68 main_v69 main_v70 (cmpf .oge : (⟨S4x1x768x768, .f32⟩ : BufTy).Contents (Elt F) → (⟨S4x1x768x768, .f32⟩ : BufTy).Contents (Elt F) → (⟨S4x1x768x768, .i1⟩ : BufTy).Contents (Elt F)),
    StableHlo.unary main_v70 main_v71 (uitofp .f32 : (⟨S4x1x768x768, .i1⟩ : BufTy).Contents (Elt F) → (⟨S4x1x768x768, .f32⟩ : BufTy).Contents (Elt F)) ]

/-- All 81 operations. -/
abbrev ops : List (HloOp τ sig (Elt F)) := ops0 ++ ops1

set_option maxRecDepth 8192 in
set_option maxHeartbeats 4000000 in
/-- The first window is its operations run in order: the two functions' definitions unfolded where they are called, both
    sides are one chain of steps once sequencing is reassociated. -/
theorem part0_eq (c : Dev nD) : main_part0 (F := F) c = seq ops0 := by
  simp only [main_part0, fn_relu.body, fn_pad.body, seq, bind_assoc, pure_bind]
  rfl

set_option maxRecDepth 4096 in
/-- The second window calls no function: it is its operations run in order as written. -/
theorem part1_eq (c : Dev nD) : main_part1 (F := F) c = seq ops1 := rfl

/-- @main runs the two windows in order, which is the concatenated line run as one. -/
theorem main_eq (c : Dev nD) : main (F := F) c = seq ops := by
  rw [ops, seq_append, ← part0_eq c, ← part1_eq c]; rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., unary_bufs_sub .., unary_bufs_sub .., unary_bufs_sub .., unary_bufs_sub .., unary_bufs_sub ..,
    unary_bufs_sub .., unary_bufs_sub .., unary_bufs_sub .., unary_bufs_sub .., unary_bufs_sub .., unary_bufs_sub ..,
    unary_bufs_sub .., unary_bufs_sub .., unary_bufs_sub .., unary_bufs_sub .., unary_bufs_sub .., unary_bufs_sub ..,
    unary_bufs_sub .., unary_bufs_sub .., unary_bufs_sub .., unary_bufs_sub .., unary_bufs_sub .., unary_bufs_sub ..,
    unary_bufs_sub .., unary_bufs_sub .., unary_bufs_sub .., unary_bufs_sub .., unary_bufs_sub .., unary_bufs_sub ..,
    unary_bufs_sub .., unary_bufs_sub .., unary_bufs_sub .., unary_bufs_sub .., unary_bufs_sub .., unary_bufs_sub ..,
    unary_bufs_sub .., unary_bufs_sub .., unary_bufs_sub .., unary_bufs_sub .., unary_bufs_sub .., unary_bufs_sub ..,
    unary_bufs_sub .., unary_bufs_sub .., unary_bufs_sub .., unary_bufs_sub .., unary_bufs_sub .., unary_bufs_sub ..,
    unary_bufs_sub .., unary_bufs_sub .., unary_bufs_sub .., nary_bufs_sub .., nary_bufs_sub .., binary_bufs_sub ..,
    unary_bufs_sub .., unary_bufs_sub .., binary_bufs_sub .., unary_bufs_sub .., nullary_bufs_sub .., unary_bufs_sub ..,
    binary_bufs_sub .., nullary_bufs_sub .., unary_bufs_sub .., binary_bufs_sub .., unary_bufs_sub .., unary_bufs_sub ..,
    binary_bufs_sub .., unary_bufs_sub .., binary_bufs_sub .., nullary_bufs_sub .., binary_bufs_sub .., nullary_bufs_sub ..,
    unary_bufs_sub .., binary_bufs_sub .., unary_bufs_sub ..⟩

set_option maxRecDepth 8192 in
set_option maxHeartbeats 4000000 in
/-- Every weakly fair execution terminates with each buffer at the fold of the operations' results over its launch
    contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The fold over two lines run one after the other is the second line's fold over the first's. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-! ## The four buffers read back

Each operation's result is, at its own buffer, its function at the operands' contents and, at any other buffer, what was
there; the typed references' transports are the identity at these literal references. So the fold at a buffer is the
composition of the functions of the operations it depends on, and the composed term, unfolded stage by stage, is the
same nest of operations over the two arguments. -/

attribute [local irreducible] pad concatenate extractStridedSlice broadcastInDim Host.reduceAdd Host.exp Host.divf Host.negf mulf addf maximumf uitofp cmpf sitofp constant constantI in
set_option maxRecDepth 8192 in
set_option maxHeartbeats 4000000 in
/-- The first result: the weighted views summed, of the two arguments. -/
theorem conv_eq (V : Valuation τ sig (Elt F)) :
    after ops V (main_v68 : DevRef τ sig) = Term.conv (V (main_arg0 : DevRef τ sig)) (V (main_arg1 : DevRef τ sig)) := by
  rw [show (ops : List (HloOp τ sig (Elt F))) = ops0 ++ ops1 from rfl, after_app]
  simp only [after_cons, after_nil]
  rfl

attribute [local irreducible] pad concatenate extractStridedSlice broadcastInDim Host.reduceAdd Host.exp Host.divf Host.negf mulf addf maximumf uitofp cmpf sitofp constant constantI in
set_option maxRecDepth 8192 in
set_option maxHeartbeats 4000000 in
/-- The second result: the threshold's bit as a number. -/
theorem mask_eq (V : Valuation τ sig (Elt F)) :
    after ops V (main_v71 : DevRef τ sig) = Term.mask (V (main_arg0 : DevRef τ sig)) (V (main_arg1 : DevRef τ sig)) := by
  rw [show (ops : List (HloOp τ sig (Elt F))) = ops0 ++ ops1 from rfl, after_app]
  simp only [after_cons, after_nil]
  rfl

set_option maxRecDepth 8192 in
set_option maxHeartbeats 4000000 in
/-- No operation writes the first argument. -/
theorem arg0_eq (V : Valuation τ sig (Elt F)) :
    after ops V (main_arg0 : DevRef τ sig) = (V (main_arg0 : DevRef τ sig)) := by
  rw [show (ops : List (HloOp τ sig (Elt F))) = ops0 ++ ops1 from rfl, after_app]
  simp only [after_cons, after_nil]
  rfl

set_option maxRecDepth 8192 in
set_option maxHeartbeats 4000000 in
/-- No operation writes the second argument. -/
theorem arg1_eq (V : Valuation τ sig (Elt F)) :
    after ops V (main_arg1 : DevRef τ sig) = (V (main_arg1 : DevRef τ sig)) := by
  rw [show (ops : List (HloOp τ sig (Elt F))) = ops0 ++ ops1 from rfl, after_app]
  simp only [after_cons, after_nil]
  rfl

/-- The reference's run, for any float values: every weakly fair execution terminates with the two results at the
    composed terms of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v68)
        = Term.conv (m ((c.tc : Thread nD τ).loc main_arg0)) (m ((c.tc : Thread nD τ).loc main_arg1))
      ∧ r.2.mem ((c.tc : Thread nD τ).loc main_v71)
        = Term.mask (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v68).trans (conv_eq _), (h c main_v71).trans (mask_eq _),
      (h c main_arg0).trans (arg0_eq _), (h c main_arg1).trans (arg1_eq _)⟩)
    (run_ops m ρ)

end Cert.ReferenceIdeal.RefRun

end
-- ==== Proof.RefValue.lean ====
import proofs.«119038_j90108413870322_1_alg».proof.Proof.RefTerm
import proofs.«119038_j90108413870322_1_alg».proof.Proof.Spec
import proofs.«119038_j90108413870322_1_alg».proof.Proof.Consts
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws
import Mathlib.Algebra.BigOperators.Fin
import Mathlib.Tactic.FinCases
import Mathlib.Tactic.IntervalCases

/-!
The reference's term read at one pixel, stage by stage, over the extended reals.

The clamped stack at an index is the larger of the entry and zero; the bordered stack at bordered coordinates (p, q)
is the clamped image at (p - 2, q - 2) inside the border and zero on it; a view shifted by (dy, dx) reads the bordered
stack at (p + dy, q + dx); plane n of the 25 stacked views is the view shifted by (n / 5, n % 5), whether it lies in the
stack of sixteen or in the stack of nine; the weight on plane n is exp (-r²ₙ / (2·(s·s) + ε)), and 2·(s·s) = (2·s)·s.
The sum over the stacking axis of views times weights, started at zero, is then the specification's sum of 25 taps, and
the threshold of it is the specification's mask.
-/

noncomputable section

namespace Cert.ReferenceIdeal.RefValue

open Cert.ReferenceIdeal Cert.ReferenceIdeal.Gen Idealize.ShloMosaic Idealize.ShloMosaic.ValueIdx

/-- The clamped stack at an index: the larger of the entry and zero. -/
theorem relu_apply (x : FVec Ideal S4x1x768x768 .f32) (i : S4x1x768x768.Idx) :
    Term.relu (F := Ideal) x i = max (x i) 0 := by
  show max (x i) (Ideal.ofBits .f32 0x00000000#32) = _
  rw [Cert.Consts.ofBits_zero]

/-- The border's value: the integer zero converted. -/
theorem padValue_eq : (sitofp .f32 (constantI S_ 32 0#32) : FVec Ideal S_ .f32) (Shape.Idx.first h_S_) = 0 :=
  Idealize.ShloMosaic.sitofp_zero

/-- The bordered stack at bordered coordinates (p, q): the clamped image two rows up and two columns left, or the border's zero. -/
theorem padded_apply (x : FVec Ideal S4x1x768x768 .f32) (b : Fin 4) (c : Fin 1) (p q : ℕ) (hp : p < 772) (hq : q < 772) :
    Term.padded (F := Ideal) x (ix4 b c ⟨p, hp⟩ ⟨q, hq⟩) = Cert.Spec.xpad (Cert.Spec.img x b) p q := by
  obtain rfl : c = 0 := Subsingleton.elim _ _
  unfold Cert.Spec.xpad Term.padded
  by_cases hin : (2 ≤ p ∧ p < 770) ∧ (2 ≤ q ∧ q < 770)
  · rw [dif_pos hin]
    refine (pad_apply_of_inside _ _ _ _ _ _ _ _
      (ix4 b 0 ⟨p - 2, by omega⟩ ⟨q - 2, by omega⟩) ?_).trans (relu_apply x _)
    intro a
    match a with
    | ⟨0, _⟩ => show b.val = 0 + b.val * (0 + 1); omega
    | ⟨1, _⟩ => show 0 = 0 + 0 * (0 + 1); omega
    | ⟨2, _⟩ => show p = 2 + (p - 2) * (0 + 1); omega
    | ⟨3, _⟩ => show q = 2 + (q - 2) * (0 + 1); omega
  · rw [dif_neg hin]
    by_cases hpin : 2 ≤ p ∧ p < 770
    · have hqin : ¬(2 ≤ q ∧ q < 770) := fun h => hin ⟨hpin, h⟩
      refine (pad_apply_of_not_inside _ _ _ _ _ _ _ _ (3 : Fin 4) ?_).trans padValue_eq
      show ¬(2 ≤ q ∧ (q - 2) % (0 + 1) = 0 ∧ (q - 2) / (0 + 1) < 768)
      omega
    · refine (pad_apply_of_not_inside _ _ _ _ _ _ _ _ (2 : Fin 4) ?_).trans padValue_eq
      show ¬(2 ≤ p ∧ (p - 2) % (0 + 1) = 0 ∧ (p - 2) / (0 + 1) < 768)
      omega

/-- A shifted view at (p, q) on its one plane: the bordered stack at (p + dy, q + dx). -/
theorem patch_apply (x : FVec Ideal S4x1x768x768 .f32) (dy dx : ℕ) (hdy : dy < 5) (hdx : dx < 5)
    (h : S4x1x772x772.Slices ![0, 0, dy, dx] S4x1x768x768) (b : Fin 4) (c : Fin 1) (z : Fin 1) (p q : Fin 768) :
    Term.patch (F := Ideal) x dy dx h (ix5 b c z p q)
      = Term.padded (F := Ideal) x (ix4 b c ⟨p.val + dy, by omega⟩ ⟨q.val + dx, by omega⟩) := by
  obtain rfl : c = 0 := Subsingleton.elim _ _
  unfold Term.patch
  refine (broadcastInDim_apply _ _ _ _ (ix4 b 0 p q) ?_).trans ?_
  · intro a
    match a with
    | ⟨0, _⟩ => rfl
    | ⟨1, _⟩ => rfl
    | ⟨2, _⟩ => rfl
    | ⟨3, _⟩ => rfl
  · refine extractStridedSlice_apply _ _ _ _ _ ?_
    intro a
    match a with
    | ⟨0, _⟩ => show b.val = 0 + b.val; omega
    | ⟨1, _⟩ => show 0 = 0 + 0; omega
    | ⟨2, _⟩ => show p.val + dy = dy + p.val; omega
    | ⟨3, _⟩ => show q.val + dx = dx + q.val; omega

/-- The window of five rows and columns fits in the border. -/
theorem slices_gen (dy dx : ℕ) (hdy : dy < 5) (hdx : dx < 5) : S4x1x772x772.Slices ![0, 0, dy, dx] S4x1x768x768 := by
  interval_cases dy <;> interval_cases dx <;> decide

/-- Tap n's shifted view: rows moved by n / 5, columns by n % 5. -/
def tapPatch (x : FVec Ideal S4x1x768x768 .f32) (n : ℕ) (hn : n < 25) : FVec Ideal S4x1x1x768x768 .f32 :=
  Term.patch (F := Ideal) x (n / 5) (n % 5) (slices_gen (n / 5) (n % 5) (by omega) (by omega))

theorem tapPatch_apply (x : FVec Ideal S4x1x768x768 .f32) (n : ℕ) (hn : n < 25) (b : Fin 4) (c : Fin 1) (z : Fin 1) (p q : Fin 768) :
    tapPatch x n hn (ix5 b c z p q)
      = Term.padded (F := Ideal) x (ix4 b c ⟨p.val + n / 5, by omega⟩ ⟨q.val + n % 5, by omega⟩) :=
  patch_apply x _ _ (by omega) (by omega) _ b c z p q

/-- The first stack is the list of taps 0 to 15. -/
theorem first16_eq (x : FVec Ideal S4x1x768x768 .f32) :
    Term.first16 (F := Ideal) x = concatenate S4x1x16x768x768 2
      (List.ofFn fun n : Fin 16 => (⟨S4x1x1x768x768, tapPatch x n.val (by omega)⟩ : (s : Shape) × (s.Idx → Ideal .f32)))
      concatenates_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x16x768x768_d2 := rfl

/-- The first stack at plane n: tap n's view. -/
theorem first16_apply (x : FVec Ideal S4x1x768x768 .f32) (b : Fin 4) (c : Fin 1) (n : Fin 16) (p q : Fin 768) :
    Term.first16 (F := Ideal) x (ix5 b c n p q) = tapPatch x n.val (by omega) (ix5 b c 0 p q) := by
  rw [first16_eq]
  refine concatenate_ofFn_unit_apply (t := S4x1x16x768x768) (2 : Fin 5) (fun n : Fin 16 => tapPatch x n.val (by omega)) _ rfl rfl
    (ix5 b c n p q) n rfl (ix5 b c 0 p q) ?_
  intro a ha
  match a, ha with
  | ⟨0, _⟩, _ => rfl
  | ⟨1, _⟩, _ => rfl
  | ⟨2, _⟩, ha => exact absurd rfl ha
  | ⟨3, _⟩, _ => rfl
  | ⟨4, _⟩, _ => rfl

/-- The second stack is the list of taps 16 to 24. -/
theorem last9_eq (x : FVec Ideal S4x1x768x768 .f32) :
    Term.last9 (F := Ideal) x = concatenate S4x1x9x768x768 2
      (List.ofFn fun n : Fin 9 => (⟨S4x1x1x768x768, tapPatch x (n.val + 16) (by omega)⟩ : (s : Shape) × (s.Idx → Ideal .f32)))
      concatenates_S4x1x1x768x768_S4x1x1x768x768_S4x1x1x768x768_S4x1x1x768x768_S4x1x1x768x768_S4x1x1x768x768_S4x1x1x768x768_S4x1x1x768x768_S4x1x1x768x768_S4x1x9x768x768_d2 := rfl

/-- The second stack at plane n: tap n + 16's view. -/
theorem last9_apply (x : FVec Ideal S4x1x768x768 .f32) (b : Fin 4) (c : Fin 1) (n : Fin 9) (p q : Fin 768) :
    Term.last9 (F := Ideal) x (ix5 b c n p q) = tapPatch x (n.val + 16) (by omega) (ix5 b c 0 p q) := by
  rw [last9_eq]
  refine concatenate_ofFn_unit_apply (t := S4x1x9x768x768) (2 : Fin 5) (fun n : Fin 9 => tapPatch x (n.val + 16) (by omega)) _ rfl rfl
    (ix5 b c n p q) n rfl (ix5 b c 0 p q) ?_
  intro a ha
  match a, ha with
  | ⟨0, _⟩, _ => rfl
  | ⟨1, _⟩, _ => rfl
  | ⟨2, _⟩, ha => exact absurd rfl ha
  | ⟨3, _⟩, _ => rfl
  | ⟨4, _⟩, _ => rfl

/-- All 25 planes: plane k is tap k's view. -/
theorem patches_apply (x : FVec Ideal S4x1x768x768 .f32) (b : Fin 4) (c : Fin 1) (k : Fin 25) (p q : Fin 768) :
    Term.patches (F := Ideal) x (ix5 b c k p q) = tapPatch x k.val k.isLt (ix5 b c 0 p q) := by
  unfold Term.patches
  by_cases hk : k.val < 16
  · refine (concatenate_pair_apply_left (t := S4x1x25x768x768) (s₁ := S4x1x16x768x768) (s₂ := S4x1x9x768x768) (2 : Fin 5) _ _ _ (ix5 b c k p q) rfl (ix5 b c ⟨k.val, hk⟩ p q) ?_).trans
      (first16_apply x b c ⟨k.val, hk⟩ p q)
    intro a
    match a with
    | ⟨0, _⟩ => rfl
    | ⟨1, _⟩ => rfl
    | ⟨2, _⟩ => rfl
    | ⟨3, _⟩ => rfl
    | ⟨4, _⟩ => rfl
  · have hk9 : k.val - 16 < 9 := by have := k.isLt; omega
    refine (concatenate_pair_apply_right (t := S4x1x25x768x768) (s₁ := S4x1x16x768x768) (s₂ := S4x1x9x768x768) (2 : Fin 5) _ _ _ (ix5 b c k p q) rfl rfl (ix5 b c ⟨k.val - 16, hk9⟩ p q) ?_ ?_).trans ?_
    · intro a ha
      match a, ha with
      | ⟨0, _⟩, _ => rfl
      | ⟨1, _⟩, _ => rfl
      | ⟨2, _⟩, ha => exact absurd rfl ha
      | ⟨3, _⟩, _ => rfl
      | ⟨4, _⟩, _ => rfl
    · show k.val - 16 + 16 = k.val
      omega
    · refine (last9_apply x b c ⟨k.val - 16, hk9⟩ p q).trans ?_
      have e : k.val - 16 + 16 = k.val := by omega
      simp only [e]

/-- The program's table of squared distances is the specification's. -/
theorem lit0_eq (k : Fin 25) : lit0 k = Cert.Spec.r2w k.val := by
  fin_cases k <;> rfl

/-- The negated table at plane k: minus tap k's squared distance. -/
theorem negR2_apply (k : Fin 25) (a b d e : Fin 1) :
    Term.negR2 (F := Ideal) (ix5 a b k d e) = -(Ideal.ofBits .f32 (Cert.Spec.r2w k.val)) := by
  unfold Term.negR2
  have hb : broadcastInDim S1x1x25x1x1 ![2] bcast_S25_S1x1x25x1x1_2
      (fun i => (FloatOps.ofBits .f32 (lit0 (S25.rowMajor i)) : Ideal .f32)) (ix5 a b k d e)
        = Ideal.ofBits .f32 (Cert.Spec.r2w k.val) := by
    refine (broadcastInDim_apply _ _ _ (ix5 a b k d e) (ix1 k) ?_).trans ?_
    · intro a'
      match a' with
      | ⟨0, _⟩ => rfl
    · have e : S25.rowMajor (ix1 k) = k := Fin.ext (Shape.rowMajor_val_one (ix1 k))
      show Ideal.ofBits .f32 (lit0 (S25.rowMajor (ix1 k))) = _
      rw [e, lit0_eq]
  exact congrArg (fun v : EReal => -v) hb

/-- The denominator at a pixel: two times the squared scale, plus ε. -/
theorem denom_apply (s : FVec Ideal S4x1x768x768 .f32) (b : Fin 4) (c z : Fin 1) (p q : Fin 768) :
    Term.denom (F := Ideal) s (ix5 b c z p q)
      = Ideal.ofBits .f32 0x40000000#32 * (s (ix4 b c p q) * s (ix4 b c p q)) + Ideal.ofBits .f32 0x358637BD#32 := by
  obtain rfl : c = 0 := Subsingleton.elim _ _
  unfold Term.denom
  have hb : broadcastInDim S4x1x1x768x768 ![0, 1, 3, 4] bcast_S4x1x768x768_S4x1x1x768x768_0_1_3_4 (mulf s s) (ix5 b 0 z p q)
      = s (ix4 b 0 p q) * s (ix4 b 0 p q) := by
    refine broadcastInDim_apply _ _ _ _ (ix4 b 0 p q) ?_
    intro a
    match a with
    | ⟨0, _⟩ => rfl
    | ⟨1, _⟩ => rfl
    | ⟨2, _⟩ => rfl
    | ⟨3, _⟩ => rfl
  exact congrArg (fun v : EReal => Ideal.ofBits .f32 0x40000000#32 * v + Ideal.ofBits .f32 0x358637BD#32) hb

/-- The weights at plane k and a pixel: tap k's Gaussian weight at the pixel's scale. -/
theorem weights_apply (s : FVec Ideal S4x1x768x768 .f32) (b : Fin 4) (c : Fin 1) (k : Fin 25) (p q : Fin 768) :
    Term.weights (F := Ideal) s (ix5 b c k p q) = Cert.Spec.wgt k.val (s (ix4 b c p q)) := by
  obtain rfl : c = 0 := Subsingleton.elim _ _
  have h1 : broadcastInDim S4x1x25x768x768 ![0, 1, 2, 3, 4] bcast_S1x1x25x1x1_S4x1x25x768x768_0_1_2_3_4
      (Term.negR2 (F := Ideal)) (ix5 b 0 k p q) = -(Ideal.ofBits .f32 (Cert.Spec.r2w k.val)) := by
    refine (broadcastInDim_apply _ _ _ _ (ix5 0 0 k 0 0) ?_).trans (negR2_apply k 0 0 0 0)
    intro a
    match a with
    | ⟨0, _⟩ => rfl
    | ⟨1, _⟩ => rfl
    | ⟨2, _⟩ => rfl
    | ⟨3, _⟩ => rfl
    | ⟨4, _⟩ => rfl
  have h2 : broadcastInDim S4x1x25x768x768 ![0, 1, 2, 3, 4] bcast_S4x1x1x768x768_S4x1x25x768x768_0_1_2_3_4
      (Term.denom (F := Ideal) s) (ix5 b 0 k p q) = Cert.Spec.den (s (ix4 b 0 p q)) := by
    refine (broadcastInDim_apply _ _ _ _ (ix5 b 0 0 p q) ?_).trans ((denom_apply s b 0 0 p q).trans ?_)
    · intro a
      match a with
      | ⟨0, _⟩ => rfl
      | ⟨1, _⟩ => rfl
      | ⟨2, _⟩ => rfl
      | ⟨3, _⟩ => rfl
      | ⟨4, _⟩ => rfl
    · unfold Cert.Spec.den
      rw [mul_assoc]
  unfold Term.weights Cert.Spec.wgt
  show Ideal.exp (Ideal.div
      (broadcastInDim S4x1x25x768x768 ![0, 1, 2, 3, 4] bcast_S1x1x25x1x1_S4x1x25x768x768_0_1_2_3_4 (Term.negR2 (F := Ideal)) (ix5 b 0 k p q))
      (broadcastInDim S4x1x25x768x768 ![0, 1, 2, 3, 4] bcast_S4x1x1x768x768_S4x1x25x768x768_0_1_2_3_4 (Term.denom (F := Ideal) s) (ix5 b 0 k p q))) = _
  rw [h1, h2]

/-- The reference's first result, at the extended reals, is the convolution of the stack. -/
theorem conv_eq (x s : FVec Ideal S4x1x768x768 .f32) : Term.conv (F := Ideal) x s = Cert.Spec.convArr x s := by
  funext i
  obtain ⟨b, c, p, q, rfl⟩ : ∃ (b : Fin 4) (c : Fin 1) (p q : Fin 768), i = ix4 b c p q :=
    ⟨i 0, i 1, i 2, i 3, eq_ix4 i⟩
  obtain rfl : c = 0 := Subsingleton.elim _ _
  rw [Cert.Spec.convArr_ix4]
  have hR : S4x1x25x768x768.Reduces [2] S4x1x768x768 := by decide
  -- each summand is the specification's tap
  have hsum : ∀ k : Fin 25, (mulf (Term.patches (F := Ideal) x) (Term.weights (F := Ideal) s)) (hR.lift (ix4 b 0 p q) k)
      = Cert.Spec.tap (Cert.Spec.img x b) (Cert.Spec.img s b) p q k.val := by
    intro k
    have hl : hR.lift (ix4 b 0 p q) k = ix5 b 0 k p q := by
      funext a
      match a with
      | ⟨0, _⟩ => rfl
      | ⟨1, _⟩ => rfl
      | ⟨2, _⟩ => rfl
      | ⟨3, _⟩ => rfl
      | ⟨4, _⟩ => rfl
    show Term.patches (F := Ideal) x (hR.lift (ix4 b 0 p q) k) * Term.weights (F := Ideal) s (hR.lift (ix4 b 0 p q) k) = _
    rw [hl, patches_apply, weights_apply, tapPatch_apply, padded_apply]
    rfl
  unfold Term.conv Host.reduceAdd
  refine (Ideal.hostReduceAdd_single reducesTo_S4x1x25x768x768_S4x1x768x768_d2 hR _ _ (ix4 b 0 p q)).trans ?_
  show Ideal.ofBits .f32 0x00000000#32 + ∑ k : Fin 25,
    (mulf (Term.patches (F := Ideal) x) (Term.weights (F := Ideal) s)) (hR.lift (ix4 b 0 p q) k) = _
  rw [Cert.Consts.ofBits_zero, zero_add, Cert.Spec.conv, ← Fin.sum_univ_eq_sum_range]
  exact Finset.sum_congr rfl (fun k _ => hsum k)

/-- The reference's second result, at the extended reals, is its threshold mask. -/
theorem mask_eq (x s : FVec Ideal S4x1x768x768 .f32) : Term.mask (F := Ideal) x s = Cert.Spec.maskArr x s := by
  unfold Term.mask
  rw [conv_eq]
  funext i
  rfl

end Cert.ReferenceIdeal.RefValue

end
-- ==== Proof.lean ====
/-
  The two programs compute one function over the extended reals. Each of the four images is clamped below at zero
  and bordered by two zeros; an output pixel is the sum, over the 25 taps of a 5 × 5 stencil, of the bordered image
  at the shifted position times exp (-r² / (2·s² + ε)), r² the tap's squared distance from the centre and s the
  per-pixel scale; the second output is the bit of that sum being at least one half. The kernel adds the 25 products
  one after the other into a zero accumulator, image by image; the reference stacks the 25 shifted views, multiplies
  by the stacked weights and sums along the stack. Addition and multiplication of extended reals are commutative and
  associative, so the order and grouping of the sum and the grouping of 2·s·s make no difference, and nothing here needs
  the inputs to be finite. The kernel spells each -r² as one float word where the reference negates the word of r², and
  widens the comparison's bit through a signed word where the reference converts it unsigned: the same numbers.
-/
import proofs.«119038_j90108413870322_1_alg».proof.Defs
import proofs.«119038_j90108413870322_1_alg».proof.Proof.Gen.Kernel
import proofs.«119038_j90108413870322_1_alg».proof.Proof.Gen.Kernel.Skeleton
import proofs.«119038_j90108413870322_1_alg».proof.Proof.Gen.Kernel.Launch
import proofs.«119038_j90108413870322_1_alg».proof.Proof.Gen.Kernel.Points
import proofs.«119038_j90108413870322_1_alg».proof.Proof.Gen.Kernel.Frame
import proofs.«119038_j90108413870322_1_alg».proof.Proof.Gen.KernelIdeal
import proofs.«119038_j90108413870322_1_alg».proof.Proof.Gen.KernelIdeal.Skeleton
import proofs.«119038_j90108413870322_1_alg».proof.Proof.Gen.KernelIdeal.Launch
import proofs.«119038_j90108413870322_1_alg».proof.Proof.Gen.KernelIdeal.Points
import proofs.«119038_j90108413870322_1_alg».proof.Proof.Gen.KernelIdeal.Frame
import proofs.«119038_j90108413870322_1_alg».proof.Proof.Gen.ReferenceIdeal
import proofs.«119038_j90108413870322_1_alg».proof.Proof.Gen.Pre_finite_inputs
import proofs.«119038_j90108413870322_1_alg».proof.Proof.KernelArray
import proofs.«119038_j90108413870322_1_alg».proof.Proof.RefRun
import proofs.«119038_j90108413870322_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run with its results dropped. -/
theorem frame_referenceIdeal : Cert.frame_ReferenceIdeal := fun m ρ _ =>
  (θ_run Cert.ReferenceIdeal.defs _ _).mono (fun _ h c => ⟨(h c).2.2.1, (h c).2.2.2⟩)
    (Cert.ReferenceIdeal.RefRun.run (F := Ideal) m ρ)

/-- The idealization rewrote nothing. -/
theorem preserves : Cert.preserves_Kernel_KernelIdeal := trivial

/-- Both programs end with the convolution and its mask of the arguments they agree on. -/
theorem algebraic : Cert.algebraic_KernelIdeal_ReferenceIdeal := by
  intro m ρ m' ρ' _ hagree
  refine ⟨_, _, Cert.KernelIdeal.Arr.run m ρ, ?_⟩
  refine (θ_run Cert.ReferenceIdeal.defs _ _).mono
    (fun _ h c => ⟨(h c).1.trans ?_, (h c).2.1.trans ?_, (h c).2.2.1, (h c).2.2.2⟩)
    (Cert.ReferenceIdeal.RefRun.run (F := Ideal) m' ρ')
  · rw [(hagree c).1, (hagree c).2]
    exact Cert.ReferenceIdeal.RefValue.conv_eq _ _
  · rw [(hagree c).1, (hagree c).2]
    exact Cert.ReferenceIdeal.RefValue.mask_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
